-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x50 : Shape := ⟨2, ![16384, 50]⟩
abbrev S1000000x64 : Shape := ⟨2, ![1000000, 64]⟩
abbrev S500000x64 : Shape := ⟨2, ![500000, 64]⟩
abbrev S1000x64 : Shape := ⟨2, ![1000, 64]⟩
abbrev S1000000 : Shape := ⟨1, ![1000000]⟩
abbrev S500000 : Shape := ⟨1, ![500000]⟩
abbrev S_ : Shape := ⟨0, ![]⟩
abbrev S2x64x64 : Shape := ⟨3, ![2, 64, 64]⟩
abbrev S2x64 : Shape := ⟨2, ![2, 64]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S1000x64 : S_.BroadcastsInDim S1000x64 (![] : Fin 0 → Fin S1000x64.rank)
  reducesTo_S1000x64_S_d0_1 : S1000x64.ReducesTo [0, 1] S_
  bcast_S_S1000000 : S_.BroadcastsInDim S1000000 (![] : Fin 0 → Fin S1000000.rank)
  reducesTo_S1000000_S_d0 : S1000000.ReducesTo [0] S_
  bcast_S_S500000 : S_.BroadcastsInDim S500000 (![] : Fin 0 → Fin S500000.rank)
  reducesTo_S500000_S_d0 : S500000.ReducesTo [0] S_
  reducesTo_S_S_d : S_.ReducesTo [] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_

variable [Facts]

def fn_part2 {F : FTy → Type} [FloatOps F] (main_v32 : IVec S_ 1) (main_v33 : FVec F S2x64 .f32) : IVec S_ 1 :=
  let main_cst_12 : FVec F S_ .f32 := constant S_ .f32 0x7F800000#32
  let main_v34 : FVec F S2x64 .f32 := broadcastInDim S2x64 ![] bcast_S_S2x64 main_cst_12
  let main_v35 : IVec S2x64 1 := cmpf .olt main_v33 main_v34
  let main_c_13 : IVec S_ 1 := constantI S_ 1 1#1
  let main_v36 : IVec S_ 1 := (fun x v => Host.reduce IntOp.andi x v reducesTo_S2x64_S_d0_1 h_S_) main_v35 main_c_13
  let main_v37 : IVec S_ 1 := andi main_v32 main_v36
  main_v37

def fn_part1 {F : FTy → Type} [FloatOps F] (main_arg9 : FVec F S500000 .f32) (main_arg10 : FVec F S_ .f32) (main_arg11 : FVec F S2x64x64 .f32) (main_arg12 : FVec F S2x64 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S500000 .f32 := Host.absf main_arg9
  let main_cst_6 : FVec F S_ .f32 := constant S_ .f32 0x7F800000#32
  let main_v20 : FVec F S500000 .f32 := broadcastInDim S500000 ![] bcast_S_S500000 main_cst_6
  let main_v21 : IVec S500000 1 := cmpf .olt main_v19 main_v20
  let main_c_7 : IVec S_ 1 := constantI S_ 1 1#1
  let main_v22 : IVec S_ 1 := (fun x v => Host.reduce IntOp.andi x v reducesTo_S500000_S_d0 h_S_) main_v21 main_c_7
  let main_v23 : IVec S_ 1 := andi main_v18 main_v22
  let main_v24 : FVec F S_ .f32 := Host.absf main_arg10
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  let main_v28 : FVec F S2x64x64 .f32 := Host.absf main_arg11
  let main_cst_10 : FVec F S_ .f32 := constant S_ .f32 0x7F800000#32
  let main_v29 : FVec F S2x64x64 .f32 := broadcastInDim S2x64x64 ![] bcast_S_S2x64x64 main_cst_10
  let main_v30 : IVec S2x64x64 1 := cmpf .olt main_v28 main_v29
  let main_c_11 : IVec S_ 1 := constantI S_ 1 1#1
  let main_v31 : IVec S_ 1 := (fun x v => Host.reduce IntOp.andi x v reducesTo_S2x64x64_S_d0_1_2 h_S_) main_v30 main_c_11
  let main_v32 : IVec S_ 1 := andi main_v27 main_v31
  let main_v33 : FVec F S2x64 .f32 := Host.absf main_arg12
  fn_part2 (F := F) main_v32 main_v33

def fn {F : FTy → Type} [FloatOps F] (main_arg0 : IVec S16384 32) (main_arg1 : IVec S16384 32) (main_arg2 : IVec S16384 32) (main_arg3 : IVec S16384x50 32) (main_arg4 : IVec S16384 32) (main_arg5 : FVec F S1000000x64 .f32) (main_arg6 : FVec F S500000x64 .f32) (main_arg7 : FVec F S1000x64 .f32) (main_arg8 : FVec F S1000000 .f32) (main_arg9 : FVec F S500000 .f32) (main_arg10 : FVec F S_ .f32) (main_arg11 : FVec F S2x64x64 .f32) (main_arg12 : FVec F S2x64 .f32) : IVec S_ 1 :=
  let main_v0 : FVec F S1000000x64 .f32 := Host.absf main_arg5
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S500000x64 .f32 := Host.absf main_arg6
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  let main_v9 : FVec F S1000x64 .f32 := Host.absf main_arg7
  let main_cst_2 : FVec F S_ .f32 := constant S_ .f32 0x7F800000#32
  let main_v10 : FVec F S1000x64 .f32 := broadcastInDim S1000x64 ![] bcast_S_S1000x64 main_cst_2
  let main_v11 : IVec S1000x64 1 := cmpf .olt main_v9 main_v10
  let main_c_3 : IVec S_ 1 := constantI S_ 1 1#1
  let main_v12 : IVec S_ 1 := (fun x v => Host.reduce IntOp.andi x v reducesTo_S1000x64_S_d0_1 h_S_) main_v11 main_c_3
  let main_v13 : IVec S_ 1 := andi main_v8 main_v12
  let main_v14 : FVec F S1000000 .f32 := Host.absf main_arg8
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg9 main_arg10 main_arg11 main_arg12 main_v13 main_v16
-- ==== Kernel.lean ====
abbrev S16384 : Shape := ⟨1, ![16384]⟩
abbrev S16384x50 : Shape := ⟨2, ![16384, 50]⟩
abbrev S1000000x64 : Shape := ⟨2, ![1000000, 64]⟩
abbrev S500000x64 : Shape := ⟨2, ![500000, 64]⟩
abbrev S1000x64 : Shape := ⟨2, ![1000, 64]⟩
abbrev S1000000 : Shape := ⟨1, ![1000000]⟩
abbrev S500000 : Shape := ⟨1, ![500000]⟩
abbrev S_ : Shape := ⟨0, ![]⟩
abbrev S2x64x64 : Shape := ⟨3, ![2, 64, 64]⟩
abbrev S2x64 : Shape := ⟨2, ![2, 64]⟩
abbrev S16384x1 : Shape := ⟨2, ![16384, 1]⟩
abbrev S16384x64 : Shape := ⟨2, ![16384, 64]⟩
abbrev S50 : Shape := ⟨1, ![50]⟩
abbrev S1x50 : Shape := ⟨2, ![1, 50]⟩
abbrev S16384x50x1 : Shape := ⟨3, ![16384, 50, 1]⟩
abbrev S16384x50x64 : Shape := ⟨3, ![16384, 50, 64]⟩
abbrev S2048x64 : Shape := ⟨2, ![2048, 64]⟩
abbrev S2048 : Shape := ⟨1, ![2048]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩

abbrev nBuf : Space → Nat
  | .hbm => 101
  | .vmem => 16
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S16384x50, .i32⟩
  | .hbm, ⟨4, _⟩ => ⟨S16384, .i32⟩
  | .hbm, ⟨5, _⟩ => ⟨S1000000x64, .f32⟩
  | .hbm, ⟨6, _⟩ => ⟨S500000x64, .f32⟩
  | .hbm, ⟨7, _⟩ => ⟨S1000x64, .f32⟩
  | .hbm, ⟨8, _⟩ => ⟨S1000000, .f32⟩
  | .hbm, ⟨9, _⟩ => ⟨S500000, .f32⟩
  | .hbm, ⟨10, _⟩ => ⟨S_, .f32⟩
  | .hbm, ⟨11, _⟩ => ⟨S2x64x64, .f32⟩
  | .hbm, ⟨12, _⟩ => ⟨S2x64, .f32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S16384x1, .i32⟩
  | .hbm, ⟨21, _⟩ => ⟨S16384x64, .f32⟩
  | .hbm, ⟨22, _⟩ => ⟨S_, .i32⟩
  | .hbm, ⟨23, _⟩ => ⟨S16384, .i32⟩
  | .hbm, ⟨24, _⟩ => ⟨S16384, .i1⟩
  | .hbm, ⟨25, _⟩ => ⟨S_, .i32⟩
  | .hbm, ⟨26, _⟩ => ⟨S16384, .i32⟩
  | .hbm, ⟨27, _⟩ => ⟨S16384, .i32⟩
  | .hbm, ⟨28, _⟩ => ⟨S16384, .i32⟩
  | .hbm, ⟨29, _⟩ => ⟨S16384x1, .i32⟩
  | .hbm, ⟨30, _⟩ => ⟨S16384x64, .f32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S16384x64, .f32⟩
  | .hbm, ⟨40, _⟩ => ⟨S_, .f32⟩
  | .hbm, ⟨41, _⟩ => ⟨S16384x64, .f32⟩
  | .hbm, ⟨42, _⟩ => ⟨S16384x64, .f32⟩
  | .hbm, ⟨43, _⟩ => ⟨S16384x64, .f32⟩
  | .hbm, ⟨44, _⟩ => ⟨S_, .i32⟩
  | .hbm, ⟨45, _⟩ => ⟨S16384, .i32⟩
  | .hbm, ⟨46, _⟩ => ⟨S16384, .i1⟩
  | .hbm, ⟨47, _⟩ => ⟨S_, .i32⟩
  | .hbm, ⟨48, _⟩ => ⟨S16384, .i32⟩
  | .hbm, ⟨49, _⟩ => ⟨S16384, .i32⟩
  | .hbm, ⟨50, _⟩ => ⟨S16384, .i32⟩
  | .hbm, ⟨51, _⟩ => ⟨S16384x1, .i32⟩
  | .hbm, ⟨52, _⟩ => ⟨S16384, .f32⟩
  | .hbm, ⟨53, _⟩ => ⟨S_, .i32⟩
  | .hbm, ⟨54, _⟩ => ⟨S16384, .i32⟩
  | .hbm, ⟨55, _⟩ => ⟨S16384, .i1⟩
  | .hbm, ⟨56, _⟩ => ⟨S_, .i32⟩
  | .hbm, ⟨57, _⟩ => ⟨S16384, .i32⟩
  | .hbm, ⟨58, _⟩ => ⟨S16384, .i32⟩
  | .hbm, ⟨59, _⟩ => ⟨S16384, .i32⟩
  | .hbm, ⟨60, _⟩ => ⟨S16384x1, .i32⟩
  | .hbm, ⟨61, _⟩ => ⟨S16384, .f32⟩
  | .hbm, ⟨62, _⟩ => ⟨S50, .i32⟩
  | .hbm, ⟨63, _⟩ => ⟨S1x50, .i32⟩
  | .hbm, ⟨64, _⟩ => ⟨S16384x1, .i32⟩
  | .hbm, ⟨65, _⟩ => ⟨S16384x50, .i32⟩
  | .hbm, ⟨66, _⟩ => ⟨S16384x50, .i32⟩
  | .hbm, ⟨67, _⟩ => ⟨S16384x50, .i1⟩
  | .hbm, ⟨68, _⟩ => ⟨S16384x50, .f32⟩
  | .hbm, ⟨69, _⟩ => ⟨S_, .i32⟩
  | .hbm, ⟨70, _⟩ => ⟨S16384x50, .i32⟩
  | .hbm, ⟨71, _⟩ => ⟨S16384x50, .i1⟩
  | .hbm, ⟨72, _⟩ => ⟨S_, .i32⟩
  | .hbm, ⟨73, _⟩ => ⟨S16384x50, .i32⟩
  | .hbm, ⟨74, _⟩ => ⟨S16384x50, .i32⟩
  | .hbm, ⟨75, _⟩ => ⟨S16384x50, .i32⟩
  | .hbm, ⟨76, _⟩ => ⟨S16384x50x1, .i32⟩
  | .hbm, ⟨77, _⟩ => ⟨S16384x50x64, .f32⟩
  | .hbm, ⟨78, _⟩ => ⟨S_, .f32⟩
  | .hbm, ⟨79, _⟩ => ⟨S16384, .f32⟩
  | .hbm, ⟨80, _⟩ => ⟨S16384x1, .f32⟩
  | .hbm, ⟨81, _⟩ => ⟨S16384x50x1, .f32⟩
  | .hbm, ⟨82, _⟩ => ⟨S16384x50x64, .f32⟩
  | .hbm, ⟨83, _⟩ => ⟨S16384x50x64, .f32⟩
  | .hbm, ⟨84, _⟩ => ⟨S_, .f32⟩
  | .hbm, ⟨85, _⟩ => ⟨S16384x64, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S16384x64, .f32⟩
  | .hbm, ⟨90, _⟩ => ⟨S16384x64, .f32⟩
  | .hbm, ⟨91, _⟩ => ⟨S_, .i32⟩
  | .hbm, ⟨92, _⟩ => ⟨S16384, .i32⟩
  | .hbm, ⟨93, _⟩ => ⟨S16384, .i1⟩
  | .hbm, ⟨94, _⟩ => ⟨S16384, .f32⟩
  | .hbm, ⟨95, _⟩ => ⟨S16384x1, .f32⟩
  | .hbm, ⟨96, _⟩ => ⟨S16384x64, .f32⟩
  | .hbm, ⟨97, _⟩ => ⟨S2x64x64, .f32⟩
  | .hbm, ⟨98, _⟩ => ⟨S16384, .f32⟩
  | .hbm, ⟨99, _⟩ => ⟨S16384, .f32⟩
  | .hbm, ⟨100, _⟩ => ⟨S16384, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048, .f32⟩
  | .local _ .vmem, ⟨9, _⟩ => ⟨S2048, .f32⟩
  | .local _ .vmem, ⟨10, _⟩ => ⟨S2048, .f32⟩
  | .local _ .vmem, ⟨11, _⟩ => ⟨S2048, .f32⟩
  | .local _ .vmem, ⟨12, _⟩ => ⟨S2x64x64, .f32⟩
  | .local _ .vmem, ⟨13, _⟩ => ⟨S2x64, .f32⟩
  | .local _ .vmem, ⟨14, _⟩ => ⟨S2048, .f32⟩
  | .local _ .vmem, ⟨15, _⟩ => ⟨S2048, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_9 : Ref sig .tc := ⟨.hbm, 69, rfl⟩
abbrev main_v45 : Ref sig .tc := ⟨.hbm, 70, rfl⟩
abbrev main_v46 : Ref sig .tc := ⟨.hbm, 71, rfl⟩
abbrev main_c_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_cst_13 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x64 : S_.BroadcastsInDim S16384x64 (![] : Fin 0 → Fin S16384x64.rank)
  bcast_S50_S1x50_1 : S50.BroadcastsInDim S1x50 (![1] : Fin 1 → Fin S1x50.rank)
  bcast_S1x50_S16384x50_0_1 : S1x50.BroadcastsInDim S16384x50 (![0, 1] : Fin 2 → Fin S16384x50.rank)
  bcast_S16384x1_S16384x50_0_1 : S16384x1.BroadcastsInDim S16384x50 (![0, 1] : Fin 2 → Fin S16384x50.rank)
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  reducesTo_S16384x50_S16384_d1 : S16384x50.ReducesTo [1] S16384
  h_S_ : 0 < S_.numel
  bcast_S16384x50x1_S16384x50x64_0_1_2 : S16384x50x1.BroadcastsInDim S16384x50x64 (![0, 1, 2] : Fin 3 → Fin S16384x50x64.rank)
  reducesTo_S16384x50x64_S16384x64_d1 : S16384x50x64.ReducesTo [1] S16384x64
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)
  transposes_S2x64x64_S2x64x64_0_2_1 : S2x64x64.Transposes [0, 2, 1] S2x64x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bitsLt_bf16_f32 : FTy.bits .bf16 < FTy.bits .f32
  inb_S2x64x64_S1x64x64_0_0_0 : ∀ a, (![0, 0, 0] : Fin 3 → Nat) a + S1x64x64.size a ≤ S2x64x64.size a
  h_S1x64x64 : 0 < S1x64x64.numel
  shapeCasts_S1x64x64_S64x64 : S1x64x64.ShapeCasts S64x64
  inb_S2x64_S1x64_0_0 : ∀ a, (![0, 0] : Fin 2 → Nat) a + S1x64.size a ≤ S2x64.size a
  h_S1x64 : 0 < S1x64.numel
  shapeCasts_S1x64_S64 : S1x64.ShapeCasts S64
  shapeCasts_S64_S1x64 : S64.ShapeCasts S1x64
  broadcasts_S1x64_S2048x64 : S1x64.Broadcasts S2048x64
  inb_S2x64x64_S1x64x64_1_0_0 : ∀ a, (![1, 0, 0] : Fin 3 → Nat) a + S1x64x64.size a ≤ S2x64x64.size a
  inb_S2x64_S1x64_1_0 : ∀ a, (![1, 0] : Fin 2 → Nat) a + S1x64.size a ≤ S2x64.size a
  reduces_S2048x64_S2048 : S2048x64.Reduces [1] S2048
  inb_S2048_S2048_0 : ∀ a, (![0] : Fin 1 → Nat) a + S2048.size a ≤ S2048.size a
  h_S2048 : 0 < S2048.numel
  shapeCasts_S2048_S2048 : S2048.ShapeCasts S2048
  gather_S1000000x64_S16384x1_S16384x64_1_0_n_n_0_1_164_wf : GatherDims.WF S1000000x64 S16384x1 S16384x64 [1] [0] [] [0] [] 1 ![1, 64]
  gather_S500000x64_S16384x1_S16384x64_1_0_n_n_0_1_164_wf : GatherDims.WF S500000x64 S16384x1 S16384x64 [1] [0] [] [0] [] 1 ![1, 64]
  gather_S1000x64_S16384x1_S16384x64_1_0_n_n_0_1_164_wf : GatherDims.WF S1000x64 S16384x1 S16384x64 [1] [0] [] [0] [] 1 ![1, 64]
  gather_S1000000_S16384x1_S16384_n_0_n_n_0_1_1_wf : GatherDims.WF S1000000 S16384x1 S16384 [] [0] [] [0] [] 1 ![1]
  gather_S500000_S16384x1_S16384_n_0_n_n_0_1_1_wf : GatherDims.WF S500000 S16384x1 S16384 [] [0] [] [0] [] 1 ![1]
  gather_S1000000x64_S16384x50x1_S16384x50x64_2_0_n_n_0_2_164_wf : GatherDims.WF S1000000x64 S16384x50x1 S16384x50x64 [2] [0] [] [0] [] 2 ![1, 64]
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S16384x64.size a
  hwx0_1 : ∀ i : grid0.Coords, EltTy.bits .f32 = 32 ∨ (Rect.block (s := S16384x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .f32 = 32 ∨ (Rect.block (s := S16384x64) S2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S16384x64.size a
  hwx0_3 : ∀ i : grid0.Coords, EltTy.bits .f32 = 32 ∨ (Rect.block (s := S16384x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S16384.size a
  hwx0_4 : ∀ i : grid0.Coords, EltTy.bits .f32 = 32 ∨ (Rect.block (s := S16384) S2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S16384.size a
  hwx0_5 : ∀ i : grid0.Coords, EltTy.bits .f32 = 32 ∨ (Rect.block (s := S16384) S2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x64x64.size a ≤ S2x64x64.size a
  hwx0_6 : ∀ i : grid0.Coords, EltTy.bits .f32 = 32 ∨ (Rect.block (s := S2x64x64) S2x64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x64.size a ≤ S2x64.size a
  hwx0_7 : ∀ i : grid0.Coords, EltTy.bits .f32 = 32 ∨ (Rect.block (s := S2x64) S2x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048.size a ≤ S16384.size a
  hwx0_8 : ∀ i : grid0.Coords, EltTy.bits .f32 = 32 ∨ (Rect.block (s := S16384) S2048.size (cc0_transform_8 i) (hinb0_8 i)).WholeWords (EltTy.packing .f32)

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S500000x64_S16384x1_S16384x64_1_0_n_n_0_1_164 : GatherDims S500000x64 S16384x1 S16384x64 where
  offsetDims := [1]
  collapsedSliceDims := [0]
  operandBatchingDims := []
  startIndicesBatchingDims := []
  startIndexMap := [0]
  indexVectorDim := 1
  sliceSizes := ![1, 64]
  wf := gather_S500000x64_S16384x1_S16384x64_1_0_n_n_0_1_164_wf
def gather_S1000x64_S16384x1_S16384x64_1_0_n_n_0_1_164 : GatherDims S1000x64 S16384x1 S16384x64 where
  offsetDims := [1]
  collapsedSliceDims := [0]
  operandBatchingDims := []
  startIndicesBatchingDims := []
  startIndexMap := [0]
  indexVectorDim := 1
  sliceSizes := ![1, 64]
  wf := gather_S1000x64_S16384x1_S16384x64_1_0_n_n_0_1_164_wf
def gather_S1000000_S16384x1_S16384_n_0_n_n_0_1_1 : GatherDims S1000000 S16384x1 S16384 where
  offsetDims := []
  collapsedSliceDims := [0]
  operandBatchingDims := []
  startIndicesBatchingDims := []
  startIndexMap := [0]
  indexVectorDim := 1
  sliceSizes := ![1]
  wf := gather_S1000000_S16384x1_S16384_n_0_n_n_0_1_1_wf
def gather_S500000_S16384x1_S16384_n_0_n_n_0_1_1 : GatherDims S500000 S16384x1 S16384 where
  offsetDims := []
  collapsedSliceDims := [0]
  operandBatchingDims := []
  startIndicesBatchingDims := []
  startIndexMap := [0]
  indexVectorDim := 1
  sliceSizes := ![1]
  wf := gather_S500000_S16384x1_S16384_n_0_n_n_0_1_1_wf
def gather_S1000000x64_S16384x50x1_S16384x50x64_2_0_n_n_0_2_164 : GatherDims S1000000x64 S16384x50x1 S16384x50x64 where
  offsetDims := [2]
  collapsedSliceDims := [0]
  operandBatchingDims := []
  startIndicesBatchingDims := []
  startIndexMap := [0]
  indexVectorDim := 2
  sliceSizes := ![1, 64]
  wf := gather_S1000000x64_S16384x50x1_S16384x50x64_2_0_n_n_0_2_164_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_v6) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v61) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v66) S2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S2048x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30) S2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v37) S2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v67) S2x64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S2x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v68) S2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384 : Shape := ⟨1, ![16384]⟩
abbrev S16384x50 : Shape := ⟨2, ![16384, 50]⟩
abbrev S1000000x64 : Shape := ⟨2, ![1000000, 64]⟩
abbrev S500000x64 : Shape := ⟨2, ![500000, 64]⟩
abbrev S1000x64 : Shape := ⟨2, ![1000, 64]⟩
abbrev S1000000 : Shape := ⟨1, ![1000000]⟩
abbrev S500000 : Shape := ⟨1, ![500000]⟩
abbrev S_ : Shape := ⟨0, ![]⟩
abbrev S2x64x64 : Shape := ⟨3, ![2, 64, 64]⟩
abbrev S2x64 : Shape := ⟨2, ![2, 64]⟩
abbrev S16384x1 : Shape := ⟨2, ![16384, 1]⟩
abbrev S16384x64 : Shape := ⟨2, ![16384, 64]⟩
abbrev S16384x50x1 : Shape := ⟨3, ![16384, 50, 1]⟩
abbrev S16384x50x64 : Shape := ⟨3, ![16384, 50, 64]⟩
abbrev S50 : Shape := ⟨1, ![50]⟩
abbrev S1x50 : Shape := ⟨2, ![1, 50]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩

abbrev nBuf : Space → Nat
  | .hbm => 132
  | .vmem => 0
  | .smem => 0
  | _ => 0

abbrev hbmTy0_0 (i : Nat) : BufTy := match i % 128 with
  | 0 => ⟨S16384, .i32⟩
  | 1 => ⟨S16384, .i32⟩
  | 2 => ⟨S16384, .i32⟩
  | 3 => ⟨S16384x50, .i32⟩
  | 4 => ⟨S16384, .i32⟩
  | 5 => ⟨S1000000x64, .f32⟩
  | 6 => ⟨S500000x64, .f32⟩
  | 7 => ⟨S1000x64, .f32⟩
  | 8 => ⟨S1000000, .f32⟩
  | 9 => ⟨S500000, .f32⟩
  | 10 => ⟨S_, .f32⟩
  | 11 => ⟨S2x64x64, .f32⟩
  | 12 => ⟨S2x64, .f32⟩
  | 13 => ⟨S_, .i32⟩
  | 14 => ⟨S16384, .i32⟩
  | 15 => ⟨S16384, .i1⟩
  | 16 => ⟨S_, .i32⟩
  | 17 => ⟨S16384, .i32⟩
  | 18 => ⟨S16384, .i32⟩
  | 19 => ⟨S16384, .i32⟩
  | 20 => ⟨S16384x1, .i32⟩
  | 21 => ⟨S16384x64, .f32⟩
  | 22 => ⟨S_, .i32⟩
  | 23 => ⟨S16384x50, .i32⟩
  | 24 => ⟨S16384x50, .i1⟩
  | 25 => ⟨S_, .i32⟩
  | 26 => ⟨S16384x50, .i32⟩
  | 27 => ⟨S16384x50, .i32⟩
  | 28 => ⟨S16384x50, .i32⟩
  | 29 => ⟨S16384x50x1, .i32⟩
  | 30 => ⟨S16384x50x64, .f32⟩
  | 31 => ⟨S50, .i32⟩
  | 32 => ⟨S1x50, .i32⟩
  | 33 => ⟨S16384x1, .i32⟩
  | 34 => ⟨S16384x50, .i32⟩
  | 35 => ⟨S16384x50, .i32⟩
  | 36 => ⟨S16384x50, .i1⟩
  | 37 => ⟨S16384x50, .f32⟩
  | 38 => ⟨S_, .f32⟩
  | 39 => ⟨S16384, .f32⟩
  | 40 => ⟨S16384x1, .f32⟩
  | 41 => ⟨S16384x50x1, .f32⟩
  | 42 => ⟨S16384x50x64, .f32⟩
  | 43 => ⟨S16384x50x64, .f32⟩
  | 44 => ⟨S_, .f32⟩
  | 45 => ⟨S16384x64, .f32⟩
  | 46 => ⟨S_, .f32⟩
  | 47 => ⟨S16384x1, .f32⟩
  | 48 => ⟨S16384x1, .f32⟩
  | 49 => ⟨S16384x64, .f32⟩
  | 50 => ⟨S16384x64, .f32⟩
  | 51 => ⟨S_, .i32⟩
  | 52 => ⟨S16384, .i32⟩
  | 53 => ⟨S16384, .i1⟩
  | 54 => ⟨S16384x1, .i1⟩
  | 55 => ⟨S16384x64, .f32⟩
  | 56 => ⟨S1x64x64, .f32⟩
  | 57 => ⟨S64x64, .f32⟩
  | 58 => ⟨S64x64, .f32⟩
  | 59 => ⟨S16384x64, .f32⟩
  | 60 => ⟨S1x64, .f32⟩
  | 61 => ⟨S64, .f32⟩
  | 62 => ⟨S1x64, .f32⟩
  | 63 => ⟨S16384x64, .f32⟩
  | 64 => ⟨S16384x64, .f32⟩
  | 65 => ⟨S_, .f32⟩
  | 66 => ⟨S16384x64, .f32⟩
  | 67 => ⟨S16384x64, .f32⟩
  | 68 => ⟨S16384x64, .i1⟩
  | 69 => ⟨S16384x64, .f32⟩
  | 70 => ⟨S16384x64, .f32⟩
  | 71 => ⟨S1x64x64, .f32⟩
  | 72 => ⟨S64x64, .f32⟩
  | 73 => ⟨S64x64, .f32⟩
  | 74 => ⟨S16384x64, .f32⟩
  | 75 => ⟨S1x64, .f32⟩
  | 76 => ⟨S64, .f32⟩
  | 77 => ⟨S1x64, .f32⟩
  | 78 => ⟨S16384x64, .f32⟩
  | 79 => ⟨S16384x64, .f32⟩
  | 80 => ⟨S_, .f32⟩
  | 81 => ⟨S16384x64, .f32⟩
  | 82 => ⟨S16384x64, .f32⟩
  | 83 => ⟨S16384x64, .i1⟩
  | 84 => ⟨S16384x64, .f32⟩
  | 85 => ⟨S_, .i32⟩
  | 86 => ⟨S16384, .i32⟩
  | 87 => ⟨S16384, .i1⟩
  | 88 => ⟨S_, .i32⟩
  | 89 => ⟨S16384, .i32⟩
  | 90 => ⟨S16384, .i32⟩
  | 91 => ⟨S16384, .i32⟩
  | 92 => ⟨S16384x1, .i32⟩
  | 93 => ⟨S16384x64, .f32⟩
  | 94 => ⟨S_, .i32⟩
  | 95 => ⟨S16384, .i32⟩
  | 96 => ⟨S16384, .i1⟩
  | 97 => ⟨S_, .i32⟩
  | 98 => ⟨S16384, .i32⟩
  | 99 => ⟨S16384, .i32⟩
  | 100 => ⟨S16384, .i32⟩
  | 101 => ⟨S16384x1, .i32⟩
  | 102 => ⟨S16384x64, .f32⟩
  | 103 => ⟨S_, .f32⟩
  | 104 => ⟨S16384x64, .f32⟩
  | 105 => ⟨S16384x64, .f32⟩
  | 106 => ⟨S16384x64, .f32⟩
  | 107 => ⟨S16384x64, .f32⟩
  | 108 => ⟨S_, .f32⟩
  | 109 => ⟨S16384, .f32⟩
  | 110 => ⟨S_, .i32⟩
  | 111 => ⟨S16384, .i32⟩
  | 112 => ⟨S16384, .i1⟩
  | 113 => ⟨S_, .i32⟩
  | 114 => ⟨S16384, .i32⟩
  | 115 => ⟨S16384, .i32⟩
  | 116 => ⟨S16384, .i32⟩
  | 117 => ⟨S16384x1, .i32⟩
  | 118 => ⟨S16384, .f32⟩
  | 119 => ⟨S16384, .f32⟩
  | 120 => ⟨S16384, .f32⟩
  | 121 => ⟨S_, .i32⟩
  | 122 => ⟨S16384, .i32⟩
  | 123 => ⟨S16384, .i1⟩
  | 124 => ⟨S_, .i32⟩
  | 125 => ⟨S16384, .i32⟩
  | 126 => ⟨S16384, .i32⟩
  | 127 => ⟨S16384, .i32⟩
  | _ => ⟨S16384, .i32⟩

abbrev hbmTy0_1 (i : Nat) : BufTy := match i % 128 with
  | 0 => ⟨S16384x1, .i32⟩
  | 1 => ⟨S16384, .f32⟩
  | 2 => ⟨S16384, .f32⟩
  | 3 => ⟨S16384, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call0_cst : Ref sig .tc := ⟨.hbm, 65, rfl⟩
abbrev main_call0_v0 : Ref sig .tc := ⟨.hbm, 66, rfl⟩
abbrev main_v44 : Ref sig .tc := ⟨.hbm, 67, rfl⟩
abbrev main_call1_v0 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call2_cst : Ref sig .tc := ⟨.hbm, 80, rfl⟩
abbrev main_call2_v0 : Ref sig .tc := ⟨.hbm, 81, rfl⟩
abbrev main_v56 : Ref sig .tc := ⟨.hbm, 82, rfl⟩
abbrev main_call3_v0 : Ref sig .tc := ⟨.hbm, 83, rfl⟩
abbrev main_v57 : Ref sig .tc := ⟨.hbm, 84, rfl⟩
abbrev main_c_6 : Ref sig .tc := ⟨.hbm, 85, rfl⟩
abbrev main_v58 : Ref sig .tc := ⟨.hbm, 86, rfl⟩
abbrev main_v59 : Ref sig .tc := ⟨.hbm, 87, rfl⟩
abbrev main_c_7 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_8 : Ref sig .tc := ⟨.hbm, 94, rfl⟩
abbrev main_v65 : Ref sig .tc := ⟨.hbm, 95, rfl⟩
abbrev main_v66 : Ref sig .tc := ⟨.hbm, 96, rfl⟩
abbrev main_c_9 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_10 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_11 : Ref sig .tc := ⟨.hbm, 108, rfl⟩
abbrev main_v76 : Ref sig .tc := ⟨.hbm, 109, rfl⟩
abbrev main_c_12 : Ref sig .tc := ⟨.hbm, 110, rfl⟩
abbrev main_v77 : Ref sig .tc := ⟨.hbm, 111, rfl⟩
abbrev main_v78 : Ref sig .tc := ⟨.hbm, 112, rfl⟩
abbrev main_c_13 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_c_14 : Ref sig .tc := ⟨.hbm, 121, rfl⟩
abbrev main_v86 : Ref sig .tc := ⟨.hbm, 122, rfl⟩
abbrev main_v87 : Ref sig .tc := ⟨.hbm, 123, rfl⟩
abbrev main_c_15 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  bcast_S50_S1x50_1 : S50.BroadcastsInDim S1x50 (![1] : Fin 1 → Fin S1x50.rank)
  bcast_S1x50_S16384x50_0_1 : S1x50.BroadcastsInDim S16384x50 (![0, 1] : Fin 2 → Fin S16384x50.rank)
  bcast_S16384x1_S16384x50_0_1 : S16384x1.BroadcastsInDim S16384x50 (![0, 1] : Fin 2 → Fin S16384x50.rank)
  reducesTo_S16384x50_S16384_d1 : S16384x50.ReducesTo [1] S16384
  h_S_ : 0 < S_.numel
  bcast_S16384x50x1_S16384x50x64_0_1_2 : S16384x50x1.BroadcastsInDim S16384x50x64 (![0, 1, 2] : Fin 3 → Fin S16384x50x64.rank)
  reducesTo_S16384x50x64_S16384x64_d1 : S16384x50x64.ReducesTo [1] S16384x64
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)
  slices_S2x64x64_S1x64x64_0_0_0 : S2x64x64.Slices ![0, 0, 0] S1x64x64
  shapeCasts_S1x64x64_S64x64 : S1x64x64.ShapeCasts S64x64
  transposes_S64x64_S64x64_1_0 : S64x64.Transposes [1, 0] S64x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  slices_S2x64x64_S1x64x64_1_0_0 : S2x64x64.Slices ![1, 0, 0] S1x64x64
  slices_S2x64_S1x64_1_0 : S2x64.Slices ![1, 0] S1x64
  reducesTo_S16384x64_S16384_d1 : S16384x64.ReducesTo [1] S16384
  gather_S1000000x64_S16384x1_S16384x64_1_0_n_n_0_1_164_wf : GatherDims.WF S1000000x64 S16384x1 S16384x64 [1] [0] [] [0] [] 1 ![1, 64]
  gather_S1000000x64_S16384x50x1_S16384x50x64_2_0_n_n_0_2_164_wf : GatherDims.WF S1000000x64 S16384x50x1 S16384x50x64 [2] [0] [] [0] [] 2 ![1, 64]
  dot_S16384x64_S64x64_S16384x64_1_0_0_1_n_n_wf : DotDims.WF S16384x64 S64x64 S16384x64 [1] [0] [0] [1] [] []
  gather_S500000x64_S16384x1_S16384x64_1_0_n_n_0_1_164_wf : GatherDims.WF S500000x64 S16384x1 S16384x64 [1] [0] [] [0] [] 1 ![1, 64]
  gather_S1000x64_S16384x1_S16384x64_1_0_n_n_0_1_164_wf : GatherDims.WF S1000x64 S16384x1 S16384x64 [1] [0] [] [0] [] 1 ![1, 64]
  gather_S1000000_S16384x1_S16384_n_0_n_n_0_1_1_wf : GatherDims.WF S1000000 S16384x1 S16384 [] [0] [] [0] [] 1 ![1]
  gather_S500000_S16384x1_S16384_n_0_n_n_0_1_1_wf : GatherDims.WF S500000 S16384x1 S16384 [] [0] [] [0] [] 1 ![1]

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S1000000x64_S16384x50x1_S16384x50x64_2_0_n_n_0_2_164 : GatherDims S1000000x64 S16384x50x1 S16384x50x64 where
  offsetDims := [2]
  collapsedSliceDims := [0]
  operandBatchingDims := []
  startIndicesBatchingDims := []
  startIndexMap := [0]
  indexVectorDim := 2
  sliceSizes := ![1, 64]
  wf := gather_S1000000x64_S16384x50x1_S16384x50x64_2_0_n_n_0_2_164_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def gather_S500000x64_S16384x1_S16384x64_1_0_n_n_0_1_164 : GatherDims S500000x64 S16384x1 S16384x64 where
  offsetDims := [1]
  collapsedSliceDims := [0]
  operandBatchingDims := []
  startIndicesBatchingDims := []
  startIndexMap := [0]
  indexVectorDim := 1
  sliceSizes := ![1, 64]
  wf := gather_S500000x64_S16384x1_S16384x64_1_0_n_n_0_1_164_wf
def gather_S1000x64_S16384x1_S16384x64_1_0_n_n_0_1_164 : GatherDims S1000x64 S16384x1 S16384x64 where
  offsetDims := [1]
  collapsedSliceDims := [0]
  operandBatchingDims := []
  startIndicesBatchingDims := []
  startIndexMap := [0]
  indexVectorDim := 1
  sliceSizes := ![1, 64]
  wf := gather_S1000x64_S16384x1_S16384x64_1_0_n_n_0_1_164_wf
def gather_S1000000_S16384x1_S16384_n_0_n_n_0_1_1 : GatherDims S1000000 S16384x1 S16384 where
  offsetDims := []
  collapsedSliceDims := [0]
  operandBatchingDims := []
  startIndicesBatchingDims := []
  startIndexMap := [0]
  indexVectorDim := 1
  sliceSizes := ![1]
  wf := gather_S1000000_S16384x1_S16384_n_0_n_n_0_1_1_wf
def gather_S500000_S16384x1_S16384_n_0_n_n_0_1_1 : GatherDims S500000 S16384x1 S16384 where
  offsetDims := []
  collapsedSliceDims := [0]
  operandBatchingDims := []
  startIndicesBatchingDims := []
  startIndexMap := [0]
  indexVectorDim := 1
  sliceSizes := ![1]
  wf := gather_S500000_S16384x1_S16384_n_0_n_n_0_1_1_wf

class Facts : Prop extends Facts₀ where

variable [Facts]
-- ==== Proof.Spec.lean ====
/-
  The social-diffusion recommender's score for one batch row, as plain mathematics on the extended reals.

  A user's row of 64 latent factors is passed through two diffusion layers. A layer adds the mean of the neighbours'
  rows to the user's row, applies an affine map x ↦ x·A + β (A a 64×64 matrix, β a bias row), rectifies (max with 0), and
  keeps the result only where the row's keep bit is set (the user has at least one neighbour); elsewhere the row passes
  through unchanged. The score is the inner product of the diffused row with the product's row, plus the user's and the
  product's biases.

  Also here: a keep bit stored as the float 0 or 1 and tested against one half is the bit itself.
-/
import Idealize.ShloMosaic.PureOps.Ideal.Laws
import Idealize.ShloMosaic.Lib.ValueIdx

noncomputable section

namespace Cert.SocialDiffusion

open Idealize.ShloMosaic

/-- One diffusion layer on a row `u`: at coordinate `j`, where the keep bit is set, `max (∑ₖ (uₖ + nbₖ)·A k j + β j) 0`;
    where it is clear, `u j`. -/
def layer (keep : Fin 64 → BitVec 1) (nb : Fin 64 → EReal) (A : Fin 64 → Fin 64 → EReal) (β : Fin 64 → EReal)
    (u : Fin 64 → EReal) : Fin 64 → EReal :=
  fun j => Scalar.select (keep j) (max ((∑ k : Fin 64, (u k + nb k) * A k j) + β j) 0) (u j)

/-- The score of one row before the global bias: the twice-diffused row against the product's row, plus the two biases. -/
def rowScore (keep : Fin 64 → BitVec 1) (nb u : Fin 64 → EReal) (A₀ : Fin 64 → Fin 64 → EReal) (β₀ : Fin 64 → EReal)
    (A₁ : Fin 64 → Fin 64 → EReal) (β₁ : Fin 64 → EReal) (cp : Fin 64 → EReal) (ub pb : EReal) : EReal :=
  ((∑ j : Fin 64, layer keep nb A₁ β₁ (layer keep nb A₀ β₀ u) j * cp j) + ub) + pb

/-- The f32 pattern of one half denotes the real number 1/2. -/
theorem ofBits_half : Ideal.ofBits .f32 0x3F000000#32 = ((1 / 2 : ℝ) : EReal) := by
  simp [Ideal.ofBits, Ideal.ieee]
  rw [← EReal.coe_mul]
  exact congrArg _ (by norm_num)

/-- A bit converted to the float 0 or 1 exceeds one half exactly when it is set. -/
theorem keep_of_half (h : BitVec 1) :
    Ideal.cmp .ogt (((h.toNat : ℝ)) : EReal) (Ideal.ofBits .f32 0x3F000000#32) = h := by
  rw [ofBits_half]
  have hh : h = 0#1 ∨ h = 1#1 := by revert h; decide
  rcases hh with rfl | rfl
  · have : ¬ (((1 / 2 : ℝ) : EReal) < (((0#1 : BitVec 1).toNat : ℝ) : EReal)) := by
      rw [EReal.coe_lt_coe_iff]; norm_num
    show BitVec.ofBool (decide _) = _
    rw [decide_eq_false this]; rfl
  · have : (((1 / 2 : ℝ) : EReal) < (((1#1 : BitVec 1).toNat : ℝ) : EReal)) := by
      rw [EReal.coe_lt_coe_iff]; norm_num
    show BitVec.ofBool (decide _) = _
    rw [decide_eq_true this]; rfl

/-- The same sum of four terms in the two orders the programs add them in. -/
theorem sum_reorder (s ub pb g : EReal) : ((s + ub) + pb) + g = ((g + ub) + pb) + s := by
  rw [add_comm g ub, add_assoc ub g pb, add_comm g pb, ← add_assoc ub pb g, add_comm ((ub + pb) + g) s,
    add_assoc s ub pb, add_assoc s (ub + pb) g]

end Cert.SocialDiffusion

end
-- ==== Proof.LibRank3Layout.lean ====
/-
  Rank-3 stacks read at an index: the layout operations, the reductions over the last axis and the plain matrix
  product that a kernel working on a stack [a, b, c] of rows meets, each read at explicit coordinates.

  A matrix [a, b] viewed as [a, b, 1] or as [a, 1, b] keeps its entries; a stack [a, b, c] flattened to [a·b, c] puts row
  (i, j) at flat row i·b + j, and back; a column stack [a, b, 1] or a row stack [a, 1, c] broadcast to [a, b, c] repeats its
  entries along the unit axis. A sum or a maximum over the last axis of a stack, read at (i, j), is the sum or the fold of
  `max` over the entries (i, j, l). The plain product of an m×k by a k×n matrix into a zero accumulator, read at (r, h), is
  the sum over the contracted coordinate of the products of the entries. The reductions and the product are at the ideal values.
-/
import Idealize.ShloMosaic.PureOps.Ideal.Laws
import Idealize.ShloMosaic.Lib.ValueIdx
import Idealize.ShloMosaic.Lib.Pipeline.Value

noncomputable section

namespace Idealize.ShloMosaic.Rank3Layout

open Idealize.ShloMosaic Idealize.ShloMosaic.ValueIdx

variable {α : Type}

/-! ## Unit axes added to a matrix -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## A stack flattened to a matrix, and back -/

/-- An `[a, b, c]` array cast to `[n, c]` reads, at `(r, l)` with `r = i·b + j`, the operand at `(i, j, l)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (l : Fin c) (r : Fin n)
    (hr : r.val = i.val * b + j.val) : shapeCast ⟨2, ![n, c]⟩ x h (ix2 r l) = x (ix3 i j l) :=
  shapeCast_apply x h _ _ (by
    rw [Shape.rowMajor_val_three, Shape.rowMajor_val_two]
    show (i.val * b + j.val) * c + l.val = r.val * c + l.val
    rw [hr])

/-- An `[n, c]` array cast to `[a, b, c]` reads, at `(i, j, l)`, the operand at `(r, l)` with `r = i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (l : Fin c) (r : Fin n)
    (hr : r.val = i.val * b + j.val) : shapeCast ⟨3, ![a, b, c]⟩ x h (ix3 i j l) = x (ix2 r l) :=
  shapeCast_apply x h _ _ (by
    rw [Shape.rowMajor_val_three, Shape.rowMajor_val_two]
    show r.val * c + l.val = (i.val * b + j.val) * c + l.val
    rw [hr])

/-! ## A unit axis broadcast -/

/-- An `[a, b, 1]` array broadcast to `[a, b, c]` reads, at `(i, j, l)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, l)`, the operand at `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

/-! ## Reductions over the last axis, at the ideal values -/

/-- The index over `(i, j)` with `l` put on the dropped last axis is `(i, j, l)`. -/
theorem lift_last {a b c : ℕ} (h : (⟨3, ![a, b, c]⟩ : Shape).Reduces [2] ⟨2, ![a, b]⟩) (i : Fin a) (j : Fin b) (l : Fin c) :
    h.lift (ix2 i j) l = ix3 i j l := by
  funext ax; apply Fin.ext
  match ax with
  | ⟨0, _⟩ => rfl
  | ⟨1, _⟩ => rfl
  | ⟨2, _⟩ => rfl

/-- A sum over the last axis of a stack, read at `(i, j)`, is the sum of the entries `(i, j, l)`. -/
theorem multiReduction_add_last {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ l : Fin c, src (ix3 i j l) := by
  refine (Ideal.multiReduction_add_single src acc h hφ hacc (ix2 i j)).trans ?_
  show ∑ l : Fin c, src (h.lift (ix2 i j) l) = _
  exact Finset.sum_congr rfl fun l _ => congrArg src (lift_last h i j l)

/-- A maximum over the last axis of a stack, read at `(i, j)`, is the fold of `max`, from the accumulator's value, over the
    entries `(i, j, l)`. -/
theorem multiReduction_maximumf_last {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun l => src (ix3 i j l)) := by
  refine (Ideal.multiReduction_maximumf_single src acc h hφ hacc (ix2 i j)).trans ?_
  show (Finset.univ : Finset (Fin c)).fold max (Ideal.ofBits φ acc) (fun l => src (h.lift (ix2 i j) l)) = _
  exact congrArg (fun f : Fin c → EReal => (Finset.univ : Finset (Fin c)).fold max (Ideal.ofBits φ acc) f)
    (funext fun l => congrArg src (lift_last h i j l))

/-! ## The plain matrix product into a zero accumulator, at the ideal values -/

/-- A kernel's product of an m×k by a k×n matrix into the zero accumulator, read at `(r, h)`. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply,
    ← Equiv.sum_comp (contrEquiv1 (⟨[1], [0], [0], [1], [], [], w⟩ : DotDims _ _ _) k rfl rfl).symm]
  refine Finset.sum_congr rfl fun l _ => ?_
  have c2 := contrEquiv1_symm_val
    (⟨[1], [0], [0], [1], [], [], w⟩ : DotDims ⟨2, ![m, k]⟩ ⟨2, ![k, n]⟩ ⟨2, ![m, n]⟩) k rfl rfl l
  have l2 : (⟨[1], [0], [0], [1], [], [], w⟩ : DotDims ⟨2, ![m, k]⟩ ⟨2, ![k, n]⟩ ⟨2, ![m, n]⟩).lhsIdx (ix2 r h)
      ((contrEquiv1 _ k rfl rfl).symm l) = ix2 r l := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r h)
      ((contrEquiv1 _ k rfl rfl).symm l) = ix2 l h := by
    funext ax; apply Fin.ext
    match ax with
    | ⟨0, _⟩ => simp [DotDims.rhsIdx]; exact c2
    | ⟨1, _⟩ => simp [DotDims.rhsIdx]; rfl
  rw [l2, r2]

end Idealize.ShloMosaic.Rank3Layout

end
-- ==== Proof.LibRowOps.lean ====
/-
  Rows of a matrix read at an index: the keepdims column and the reductions over the columns.

  A vector [a] viewed as a column [a, 1] keeps its entries; a column [a, 1] broadcast to [a, b] repeats entry `p` along row
  `p`. A sum or a maximum over the second axis of an [a, b] matrix, read at row `i`, is the sum or the fold of `max` over the
  entries `(i, l)` of that row: for a kernel's reduction from its accumulator's value, and for the host's maximum from its
  initial value. The reductions are at the ideal values.
-/
import Idealize.ShloMosaic.PureOps.Ideal.Laws
import Idealize.ShloMosaic.Lib.ValueIdx
import Idealize.ShloMosaic.Lib.Pipeline.Value

noncomputable section

namespace Idealize.ShloMosaic.RowOps

open Idealize.ShloMosaic Idealize.ShloMosaic.ValueIdx

variable {α : Type}

/-! ## The keepdims column -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions over the columns, at the ideal values -/

/-- The index over row `i` with `l` put on the dropped second axis is `(i, l)`. -/
theorem lift_row {a b : ℕ} (h : (⟨2, ![a, b]⟩ : Shape).Reduces [1] ⟨1, ![a]⟩) (i : Fin a) (l : Fin b) :
    h.lift (ix1 i) l = ix2 i l := by
  funext ax; apply Fin.ext
  match ax with
  | ⟨0, _⟩ => rfl
  | ⟨1, _⟩ => rfl

/-- A kernel's sum over the columns, read at row `i`, is the sum of the row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ l : Fin b, src (ix2 i l) := by
  refine (Ideal.multiReduction_add_single src acc h hφ hacc (ix1 i)).trans ?_
  show ∑ l : Fin b, src (h.lift (ix1 i) l) = _
  exact Finset.sum_congr rfl fun l _ => congrArg src (lift_row h i l)

/-- A kernel's maximum over the columns, read at row `i`, is the fold of `max`, from the accumulator's value, over the
    row's entries. -/
theorem multiReduction_maximumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun l => src (ix2 i l)) := by
  refine (Ideal.multiReduction_maximumf_single src acc h hφ hacc (ix1 i)).trans ?_
  show (Finset.univ : Finset (Fin b)).fold max (Ideal.ofBits φ acc) (fun l => src (h.lift (ix1 i) l)) = _
  exact congrArg (fun f : Fin b → EReal => (Finset.univ : Finset (Fin b)).fold max (Ideal.ofBits φ acc) f)
    (funext fun l => congrArg src (lift_row h i l))

/-- The host's maximum over the columns, read at row `i`, is the fold of `max`, from the initial value, over the row's
    entries. -/
theorem hostReduce_maximumf_row {a b : ℕ} {φ : FTy} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (i : Fin a) :
    Host.reduce (FloatOps.maximumf (F := Ideal) (φ := φ)) x init h' hu (ix1 i)
      = (Finset.univ : Finset (Fin b)).fold max (init (Shape.Idx.first hu)) (fun l => x (ix2 i l)) := by
  refine (Host.reduce_eq_fold_single (FloatOps.maximumf (F := Ideal) (φ := φ)) x init h' h hu (ix1 i)).trans ?_
  show (Finset.univ : Finset (Fin b)).fold max (init (Shape.Idx.first hu)) (fun l => x (h.lift (ix1 i) l)) = _
  exact congrArg (fun f : Fin b → EReal => (Finset.univ : Finset (Fin b)).fold max (init (Shape.Idx.first hu)) f)
    (funext fun l => congrArg x (lift_row h i l))

end Idealize.ShloMosaic.RowOps

end
-- ==== Proof.KernelRow.lean ====
/-
  What the kernel's body computes for one row of its block, read index by index at the ideal values.
-/
import proofs.«430790_j53635551592548_3_alg».proof.Proof.Gen.KernelIdeal.Frame
import proofs.«430790_j53635551592548_3_alg».proof.Proof.Spec
import proofs.«430790_j53635551592548_3_alg».proof.Proof.LibRank3Layout
import proofs.«430790_j53635551592548_3_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx Cert.SocialDiffusion

/-- Slab 0 of the stacked matrices, loaded as a [1, 64, 64] piece and viewed as a 64×64 matrix, reads at `(k, j)` the
    stack's entry `(0, k, j)`. -/
theorem slab0_apply (x6 : Vec Ideal S2x64x64 .f32) (k j : Fin 64) :
    shapeCast S64x64 (View.ld x6 r0_1) shapeCasts_S1x64x64_S64x64 (ix2 k j) = x6 (ix3 (0 : Fin 2) k j) := by
  refine (shapeCast_1ab_ab_apply (View.ld x6 r0_1) shapeCasts_S1x64x64_S64x64 k j).trans ?_
  show x6 (r0_1.idx (ix3 (0 : Fin 1) k j)) = _
  congr 1
  funext a; apply Fin.ext
  match a with
  | ⟨0, _⟩ => rfl
  | ⟨1, _⟩ => show 0 + 1 * k.val = k.val; omega
  | ⟨2, _⟩ => show 0 + 1 * j.val = j.val; omega

/-- Slab 1 likewise reads the stack's entry `(1, k, j)`. -/
theorem slab1_apply (x6 : Vec Ideal S2x64x64 .f32) (k j : Fin 64) :
    shapeCast S64x64 (View.ld x6 r0_3) shapeCasts_S1x64x64_S64x64 (ix2 k j) = x6 (ix3 (1 : Fin 2) k j) := by
  refine (shapeCast_1ab_ab_apply (View.ld x6 r0_3) shapeCasts_S1x64x64_S64x64 k j).trans ?_
  show x6 (r0_3.idx (ix3 (0 : Fin 1) k j)) = _
  congr 1
  funext a; apply Fin.ext
  match a with
  | ⟨0, _⟩ => rfl
  | ⟨1, _⟩ => show 0 + 1 * k.val = k.val; omega
  | ⟨2, _⟩ => show 0 + 1 * j.val = j.val; omega

/-- Row 0 of the stacked biases, loaded as a [1, 64] piece, flattened, made a row again and repeated down the block,
    reads at `(r, j)` the stack's entry `(0, j)`. -/
theorem bias0_apply (x7 : Vec Ideal S2x64 .f32) (r : Fin 2048) (j : Fin 64) :
    broadcastTo S2048x64 (shapeCast S1x64 (shapeCast S64 (View.ld x7 r0_2) shapeCasts_S1x64_S64) shapeCasts_S64_S1x64)
      broadcasts_S1x64_S2048x64 (ix2 r j) = x7 (ix2 (0 : Fin 2) j) := by
  refine (broadcastTo_1b_ab_apply _ broadcasts_S1x64_S2048x64 r j).trans ?_
  refine (shapeCast_a_1a_apply _ shapeCasts_S64_S1x64 (0 : Fin 1) j).trans ?_
  refine (shapeCast_1a_a_apply _ shapeCasts_S1x64_S64 j).trans ?_
  show x7 (r0_2.idx (ix2 (0 : Fin 1) j)) = _
  congr 1
  funext a; apply Fin.ext
  match a with
  | ⟨0, _⟩ => rfl
  | ⟨1, _⟩ => show 0 + 1 * j.val = j.val; omega

/-- Row 1 likewise reads the stack's entry `(1, j)`. -/
theorem bias1_apply (x7 : Vec Ideal S2x64 .f32) (r : Fin 2048) (j : Fin 64) :
    broadcastTo S2048x64 (shapeCast S1x64 (shapeCast S64 (View.ld x7 r0_4) shapeCasts_S1x64_S64) shapeCasts_S64_S1x64)
      broadcasts_S1x64_S2048x64 (ix2 r j) = x7 (ix2 (1 : Fin 2) j) := by
  refine (broadcastTo_1b_ab_apply _ broadcasts_S1x64_S2048x64 r j).trans ?_
  refine (shapeCast_a_1a_apply _ shapeCasts_S64_S1x64 (0 : Fin 1) j).trans ?_
  refine (shapeCast_1a_a_apply _ shapeCasts_S1x64_S64 j).trans ?_
  show x7 (r0_4.idx (ix2 (0 : Fin 1) j)) = _
  congr 1
  funext a; apply Fin.ext
  match a with
  | ⟨0, _⟩ => rfl
  | ⟨1, _⟩ => show 0 + 1 * j.val = j.val; omega

/-- One layer as the body computes it on a [2048, 64] block — the block plus the neighbours' means, times a 64×64 matrix
    into a zero accumulator, plus a bias row, rectified, kept where the keep bit is set — read at `(r, j)`: the row's layer. -/
theorem layer_apply (keepv : IVec S2048x64 1) (u nbv : FVec Ideal S2048x64 .f32) (A : FVec Ideal S64x64 .f32)
    (βv : FVec Ideal S2048x64 .f32) (β : Fin 64 → EReal) (hβ : ∀ r j, βv (ix2 r j) = β j) (r : Fin 2048) (j : Fin 64) :
    select keepv (maximumf (addf (matmul dot_S2048x64_S64x64_S2048x64_1_0_0_1_n_n none
        (truncf .bf16 (addf u nbv) bitsLt_bf16_f32) (truncf .bf16 A bitsLt_bf16_f32) (constant S2048x64 .f32 0x00000000#32)) βv)
        (broadcast S2048x64 (Scalar.ofBits .f32 0x00000000#32))) u (ix2 r j)
      = layer (fun j => keepv (ix2 r j)) (fun k => nbv (ix2 r k)) (fun k j => A (ix2 k j)) β (fun k => u (ix2 r k)) j := by
  unfold layer
  rw [select_apply, maximumf_apply, addf_apply, hβ, broadcast_apply]
  have hm : matmul dot_S2048x64_S64x64_S2048x64_1_0_0_1_n_n none
        (truncf .bf16 (addf u nbv) bitsLt_bf16_f32) (truncf .bf16 A bitsLt_bf16_f32) (constant S2048x64 .f32 0x00000000#32) (ix2 r j)
      = ∑ k : Fin 64, (u (ix2 r k) + nbv (ix2 r k)) * A (ix2 k j) :=
    Rank3Layout.matmul_plain_apply dot_S2048x64_S64x64_S2048x64_1_0_0_1_n_n_wf none
      (truncf .bf16 (addf u nbv) bitsLt_bf16_f32) (truncf .bf16 A bitsLt_bf16_f32) r j
  rw [hm]
  show Scalar.select _ (max _ (Ideal.ofBits .f32 0x00000000#32)) _ = _
  rw [Ideal.ofBits_zero_f32]

/-- The body's first payload — the two layers on the block — read at `(r, j)`: the keep bit is "the mask block's entry exceeds
    one half", the matrices the two slabs of the stack, the biases its two bias rows. -/
theorem pay2_apply (x2 x0 x1 : Vec Ideal S2048x64 .f32) (x6 : Vec Ideal S2x64x64 .f32) (x7 : Vec Ideal S2x64 .f32)
    (r : Fin 2048) (j : Fin 64) :
    k0_pay2 x2 x0 x1 (View.ld x6 r0_1) (View.ld x7 r0_2) (View.ld x6 r0_3) (View.ld x7 r0_4) (ix2 r j)
      = layer (fun j => Ideal.cmp .ogt (x2 (ix2 r j)) (Ideal.ofBits .f32 0x3F000000#32)) (fun k => x1 (ix2 r k))
          (fun k j => x6 (ix3 (1 : Fin 2) k j)) (fun j => x7 (ix2 (1 : Fin 2) j))
          (layer (fun j => Ideal.cmp .ogt (x2 (ix2 r j)) (Ideal.ofBits .f32 0x3F000000#32)) (fun k => x1 (ix2 r k))
            (fun k j => x6 (ix3 (0 : Fin 2) k j)) (fun j => x7 (ix2 (0 : Fin 2) j)) (fun k => x0 (ix2 r k))) j := by
  unfold k0_pay2
  simp only [shapeCast_self]
  refine (layer_apply _ _ x1 _ _ (fun j => x7 (ix2 (1 : Fin 2) j)) (fun r j => bias1_apply x7 r j) r j).trans ?_
  have hA : (fun k j => shapeCast S64x64 (View.ld x6 r0_3) shapeCasts_S1x64x64_S64x64 (ix2 k j))
      = fun k j => x6 (ix3 (1 : Fin 2) k j) := funext fun k => funext fun j => slab1_apply x6 k j
  have hA0 : (fun k j => shapeCast S64x64 (View.ld x6 r0_1) shapeCasts_S1x64x64_S64x64 (ix2 k j))
      = fun k j => x6 (ix3 (0 : Fin 2) k j) := funext fun k => funext fun j => slab0_apply x6 k j
  rw [hA]
  refine congrArg (fun f => layer _ _ _ _ f j) (funext fun k => ?_)
  refine (layer_apply _ _ x1 _ _ (fun j => x7 (ix2 (0 : Fin 2) j)) (fun r j => bias0_apply x7 r j) r k).trans ?_
  rw [hA0]
  rfl

/-- The body's second payload — the diffused block against the product block, summed along each row, plus the two bias
    blocks — read at row `r`. -/
theorem pay1_apply (v35 : FVec Ideal S2048x64 .f32) (x3 : Vec Ideal S2048x64 .f32) (x4 x5 : Vec Ideal S2048 .f32) (r : Fin 2048) :
    k0_pay1 v35 x3 x4 x5 (ix1 r) = ((∑ j : Fin 64, v35 (ix2 r j) * x3 (ix2 r j)) + x4 (ix1 r)) + x5 (ix1 r) := by
  unfold k0_pay1
  simp only [shapeCast_self]
  rw [addf_apply, addf_apply]
  refine congrArg (fun s => (s + x4 (ix1 r)) + x5 (ix1 r)) ?_
  exact RowOps.multiReduction_add_row (mulf v35 x3) 0x00000000#32 reduces_S2048x64_S2048 (.inl rfl) rfl r

theorem hz1 : (![0] : Fin 1 → Nat) = fun _ => 0 := funext fun a => by fin_cases a <;> rfl
theorem hz2 : (![0, 0] : Fin 2 → Nat) = fun _ => 0 := funext fun a => by fin_cases a <;> rfl

/-- What the body leaves in the output's staging buffer, read at row `r` of the block: the row's score. -/
theorem out_apply (x0 x1 x2 x3 : Vec Ideal S2048x64 .f32) (x4 x5 : Vec Ideal S2048 .f32) (x6 : Vec Ideal S2x64x64 .f32)
    (x7 : Vec Ideal S2x64 .f32) (r : Fin 2048) :
    out0_8 x0 x1 x2 x3 x4 x5 x6 x7 (ix1 r)
      = rowScore (fun j => Ideal.cmp .ogt (x2 (ix2 r j)) (Ideal.ofBits .f32 0x3F000000#32)) (fun k => x1 (ix2 r k))
          (fun k => x0 (ix2 r k)) (fun k j => x6 (ix3 (0 : Fin 2) k j)) (fun j => x7 (ix2 (0 : Fin 2) j))
          (fun k j => x6 (ix3 (1 : Fin 2) k j)) (fun j => x7 (ix2 (1 : Fin 2) j)) (fun j => x3 (ix2 r j))
          (x4 (ix1 r)) (x5 (ix1 r)) := by
  unfold out0_8 rowScore
  rw [View.canon_unit_zero hz1]
  simp only [View.ld_unit_zero (S := S2048x64) hz2, View.ld_unit_zero (S := S2048) hz1]
  rw [pay1_apply]
  refine congrArg (fun s => (s + x4 (ix1 r)) + x5 (ix1 r)) ?_
  exact Finset.sum_congr rfl fun j _ => congrArg (· * x3 (ix2 r j)) (pay2_apply x2 x0 x1 x6 x7 r j)

end Cert.KernelIdeal.Row

end
-- ==== Proof.KernelBlocks.lean ====
/-
  From the kernel's blocks to its whole result array: each input window's block at a grid point is a band of 2048
  consecutive rows of its array (the two stacks are read whole at every point), so what point `t` writes back is rows
  2048·t … 2048·t + 2047 of one function of the arrays the region finds, and the eight points' blocks cover the
  16384 rows.
-/
import proofs.«430790_j53635551592548_3_alg».proof.Proof.Gen.KernelIdeal.Frame
import proofs.«430790_j53635551592548_3_alg».proof.Proof.KernelRow
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.SocialDiffusion Cert.KernelIdeal.Row
open Idealize.ShloMosaic.Pipeline (Dat)

variable (m : (ℓ : Loc nD τ sig) → Buf (Elt Ideal) ℓ) (ρ : Dev nD → PrngReg)

/-- A batch row's number as a coordinate of the 16384-row arrays. -/
abbrev row (i : S16384.Idx) : Fin 16384 := ⟨(i 0).val, (i 0).isLt⟩

/-- The kernel's result array as one function of the arrays the region finds: row by row the score, the keep bit being
    "the mask array's entry exceeds one half". `WT` is the stack of the two layers' matrices as the kernel multiplies by
    them, `Bs` the stack of the two bias rows. -/
def scores (Uv NBv Gv CPv : S16384x64.Idx → EReal) (UBv PBv : S16384.Idx → EReal) (WT : S2x64x64.Idx → EReal)
    (Bs : S2x64.Idx → EReal) : S16384.Idx → EReal := fun i =>
  rowScore (fun j => Ideal.cmp .ogt (Gv (ix2 (row i) j)) (Ideal.ofBits .f32 0x3F000000#32)) (fun k => NBv (ix2 (row i) k))
    (fun k => Uv (ix2 (row i) k)) (fun k j => WT (ix3 (0 : Fin 2) k j)) (fun j => Bs (ix2 (0 : Fin 2) j))
    (fun k j => WT (ix3 (1 : Fin 2) k j)) (fun j => Bs (ix2 (1 : Fin 2) j)) (fun j => CPv (ix2 (row i) j))
    (UBv (ix1 (row i))) (PBv (ix1 (row i)))

/-- The printed index maps, decided over the grid: every row-banded window is at block `t` along the rows and block 0
    along the factors; the two stacks are at block 0 on every axis. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 1) = t.val ∧ win0_5.index t (0 : Fin 1) = t.val
    ∧ win0_6.index t (0 : Fin 3) = 0 ∧ win0_6.index t (1 : Fin 3) = 0 ∧ win0_6.index t (2 : Fin 3) = 0
    ∧ win0_7.index t (0 : Fin 2) = 0 ∧ win0_7.index t (1 : Fin 2) = 0
    ∧ win0_8.index t (0 : Fin 1) = t.val :=
  (by decide +kernel : ∀ t : Fin grid0.N, _)

/-- Window 0's block at point `t` is rows 2048·t … 2048·t + 2047 of its array. -/
theorem iblk0_apply (c : Dev nD) (t : Fin cfg0.N) (r : Fin 2048) (k : Fin 64) (R : Fin 16384) (hR : R.val = 2048 * t.val + r.val) :
    (iblk m c 0 t : Vec Ideal S2048x64 .f32) (ix2 r k) = (V m c main_v6 : S16384x64.Idx → EReal) (ix2 R k) := by
  have hi := idx_facts t
  unfold iblk
  rw [View.read_apply]
  show V m c main_v6 _ = V m c main_v6 _
  congr 1
  funext a; apply Fin.ext
  match a with
  | ⟨0, _⟩ => show win0_0.index t (0 : Fin 2) * 2048 + 1 * r.val = R.val; omega
  | ⟨1, _⟩ => show win0_0.index t (1 : Fin 2) * 64 + 1 * k.val = k.val; omega

/-- Window 1's block at point `t` is rows 2048·t … 2048·t + 2047 of its array. -/
theorem iblk1_apply (c : Dev nD) (t : Fin cfg0.N) (r : Fin 2048) (k : Fin 64) (R : Fin 16384) (hR : R.val = 2048 * t.val + r.val) :
    (iblk m c 1 t : Vec Ideal S2048x64 .f32) (ix2 r k) = (V m c main_v61 : S16384x64.Idx → EReal) (ix2 R k) := by
  have hi := idx_facts t
  unfold iblk
  rw [View.read_apply]
  show V m c main_v61 _ = V m c main_v61 _
  congr 1
  funext a; apply Fin.ext
  match a with
  | ⟨0, _⟩ => show win0_1.index t (0 : Fin 2) * 2048 + 1 * r.val = R.val; omega
  | ⟨1, _⟩ => show win0_1.index t (1 : Fin 2) * 64 + 1 * k.val = k.val; omega

/-- Window 2's block at point `t` is rows 2048·t … 2048·t + 2047 of its array. -/
theorem iblk2_apply (c : Dev nD) (t : Fin cfg0.N) (r : Fin 2048) (k : Fin 64) (R : Fin 16384) (hR : R.val = 2048 * t.val + r.val) :
    (iblk m c 2 t : Vec Ideal S2048x64 .f32) (ix2 r k) = (V m c main_v66 : S16384x64.Idx → EReal) (ix2 R k) := by
  have hi := idx_facts t
  unfold iblk
  rw [View.read_apply]
  show V m c main_v66 _ = V m c main_v66 _
  congr 1
  funext a; apply Fin.ext
  match a with
  | ⟨0, _⟩ => show win0_2.index t (0 : Fin 2) * 2048 + 1 * r.val = R.val; omega
  | ⟨1, _⟩ => show win0_2.index t (1 : Fin 2) * 64 + 1 * k.val = k.val; omega

/-- Window 3's block at point `t` is rows 2048·t … 2048·t + 2047 of its array. -/
theorem iblk3_apply (c : Dev nD) (t : Fin cfg0.N) (r : Fin 2048) (k : Fin 64) (R : Fin 16384) (hR : R.val = 2048 * t.val + r.val) :
    (iblk m c 3 t : Vec Ideal S2048x64 .f32) (ix2 r k) = (V m c main_v23 : S16384x64.Idx → EReal) (ix2 R k) := by
  have hi := idx_facts t
  unfold iblk
  rw [View.read_apply]
  show V m c main_v23 _ = V m c main_v23 _
  congr 1
  funext a; apply Fin.ext
  match a with
  | ⟨0, _⟩ => show win0_3.index t (0 : Fin 2) * 2048 + 1 * r.val = R.val; omega
  | ⟨1, _⟩ => show win0_3.index t (1 : Fin 2) * 64 + 1 * k.val = k.val; omega

/-- Window 4's block at point `t` is entries 2048·t … 2048·t + 2047 of its array. -/
theorem iblk4_apply (c : Dev nD) (t : Fin cfg0.N) (r : Fin 2048) (R : Fin 16384) (hR : R.val = 2048 * t.val + r.val) :
    (iblk m c 4 t : Vec Ideal S2048 .f32) (ix1 r) = (V m c main_v30 : S16384.Idx → EReal) (ix1 R) := by
  have hi := idx_facts t
  unfold iblk
  rw [View.read_apply]
  show V m c main_v30 _ = V m c main_v30 _
  congr 1
  funext a; apply Fin.ext
  match a with
  | ⟨0, _⟩ => show win0_4.index t (0 : Fin 1) * 2048 + 1 * r.val = R.val; omega

/-- Window 5's block at point `t` is entries 2048·t … 2048·t + 2047 of its array. -/
theorem iblk5_apply (c : Dev nD) (t : Fin cfg0.N) (r : Fin 2048) (R : Fin 16384) (hR : R.val = 2048 * t.val + r.val) :
    (iblk m c 5 t : Vec Ideal S2048 .f32) (ix1 r) = (V m c main_v37 : S16384.Idx → EReal) (ix1 R) := by
  have hi := idx_facts t
  unfold iblk
  rw [View.read_apply]
  show V m c main_v37 _ = V m c main_v37 _
  congr 1
  funext a; apply Fin.ext
  match a with
  | ⟨0, _⟩ => show win0_5.index t (0 : Fin 1) * 2048 + 1 * r.val = R.val; omega

/-- The matrices' stack is read whole at every point. -/
theorem iblk6_apply (c : Dev nD) (t : Fin cfg0.N) (l : Fin 2) (k j : Fin 64) :
    (iblk m c 6 t : Vec Ideal S2x64x64 .f32) (ix3 l k j) = (V m c main_v67 : S2x64x64.Idx → EReal) (ix3 l k j) := by
  have hi := idx_facts t
  unfold iblk
  rw [View.read_apply]
  show V m c main_v67 _ = V m c main_v67 _
  congr 1
  funext a; apply Fin.ext
  match a with
  | ⟨0, _⟩ => show win0_6.index t (0 : Fin 3) * 2 + 1 * l.val = l.val; omega
  | ⟨1, _⟩ => show win0_6.index t (1 : Fin 3) * 64 + 1 * k.val = k.val; omega
  | ⟨2, _⟩ => show win0_6.index t (2 : Fin 3) * 64 + 1 * j.val = j.val; omega

/-- The bias rows' stack is read whole at every point. -/
theorem iblk7_apply (c : Dev nD) (t : Fin cfg0.N) (l : Fin 2) (j : Fin 64) :
    (iblk m c 7 t : Vec Ideal S2x64 .f32) (ix2 l j) = (V m c main_arg12 : S2x64.Idx → EReal) (ix2 l j) := by
  have hi := idx_facts t
  unfold iblk
  rw [View.read_apply]
  show V m c main_arg12 _ = V m c main_arg12 _
  congr 1
  funext a; apply Fin.ext
  match a with
  | ⟨0, _⟩ => show win0_7.index t (0 : Fin 2) * 2 + 1 * l.val = l.val; omega
  | ⟨1, _⟩ => show win0_7.index t (1 : Fin 2) * 64 + 1 * j.val = j.val; omega

/-- The result array as a function of the arrays the region finds. -/
abbrev result (c : Dev nD) : S16384.Idx → EReal :=
  scores (V m c main_v6) (V m c main_v61) (V m c main_v66) (V m c main_v23) (V m c main_v30) (V m c main_v37)
    (V m c main_v67) (V m c main_arg12)

/-- What point `t` writes back is block `t` of `result`. -/
theorem flushed_eq (c : Dev nD) (t : Fin cfg0.N) :
    (dats m 0 c).flushed 8 t = ((cfg0.win 8).blk t).view.read (Elt Ideal) (result m c) := by
  show (cfg0.win 8).cut (grid0.coords t) ((dats m 0 c).after 8 t) = _
  rw [after0_8]
  have hi := idx_facts t
  funext y
  obtain ⟨r, rfl⟩ : ∃ r : Fin 2048, y = ix1 r :=
    ⟨⟨(y 0).val, (y 0).isLt⟩, by funext a; match a with | ⟨0, _⟩ => rfl⟩
  rw [View.read_apply]
  refine (out_apply (iblk m c 0 t) (iblk m c 1 t) (iblk m c 2 t) (iblk m c 3 t) (iblk m c 4 t) (iblk m c 5 t)
    (iblk m c 6 t) (iblk m c 7 t) r).trans ?_
  obtain ⟨R, hRdef⟩ : ∃ R : Fin 16384, R = row (((cfg0.win 8).blk t).view.emb (ix1 r)) := ⟨_, rfl⟩
  have hR : R.val = 2048 * t.val + r.val := by
    rw [hRdef]; show win0_8.index t (0 : Fin 1) * 2048 + 1 * r.val = _; omega
  show _ = scores (V m c main_v6) (V m c main_v61) (V m c main_v66) (V m c main_v23) (V m c main_v30) (V m c main_v37)
    (V m c main_v67) (V m c main_arg12) (((cfg0.win 8).blk t).view.emb (ix1 r))
  unfold scores
  rw [← hRdef]
  simp only [iblk0_apply m c t _ _ R hR, iblk1_apply m c t _ _ R hR, iblk2_apply m c t _ _ R hR, iblk3_apply m c t _ _ R hR,
    iblk4_apply m c t _ R hR, iblk5_apply m c t _ R hR, iblk6_apply, iblk7_apply]

/-- An index of the result array is in point `t`'s block iff its row is among the block's 2048. -/
theorem mem_blk (t : Fin cfg0.N) (i : S16384.Idx) :
    i ∈ ((cfg0.win 8).blk t).view.set ↔ ∀ a : Fin 1, win0_8.index t a * S2048.size a ≤ (i a).val ∧ (i a).val < win0_8.index t a * S2048.size a + S2048.size a := by
  show i ∈ ((View.whole main_v68).slice (win0_8.rect t)).set ↔ _
  rw [View.set_slice_whole, Rect.mem_set_unit]
  exact Iff.rfl

/-- The eight points' blocks cover the array: row `i` is in the block of point `i / 2048`. -/
theorem cover (i : S16384.Idx) :
    ∃ t : Fin cfg0.N, (cfg0.win 8).flush t = true ∧ i ∈ ((cfg0.win 8).blk t).view.set := by
  have hi0 : (i 0).val < 16384 := (i 0).isLt
  have hN : cfg0.N = 8 := N_0
  refine ⟨⟨(i 0).val / 2048, by rw [hN]; omega⟩, flush0_8 _, ?_⟩
  rw [mem_blk]
  intro a
  have hi := (idx_facts ⟨(i 0).val / 2048, by rw [hN]; omega⟩).2.2.2.2.2.2.2.2.2.2.2.2.2.2.2
  match a with
  | ⟨0, _⟩ =>
    show win0_8.index _ (0 : Fin 1) * 2048 ≤ (i 0).val ∧ (i 0).val < win0_8.index _ (0 : Fin 1) * 2048 + 2048
    rw [hi]
    show (i 0).val / 2048 * 2048 ≤ (i 0).val ∧ (i 0).val < (i 0).val / 2048 * 2048 + 2048
    omega

/-- So the result array ends holding `result`. -/
theorem final (c : Dev nD) : (dats m 0 c).arrAt 8 cfg0.N = result m c :=
  (dats m 0 c).arrAt_eq_of_cover 8 (result m c) (fun t _ => flushed_eq m c t) cover

end Cert.KernelIdeal.Blocks

end
-- ==== Proof.KernelHost.lean ====
/-
  The arrays the kernel's region finds, as the host lines before it leave them: the gathered user rows, the masked mean of
  the neighbours' rows, the product rows and the two gathered biases are the same compositions of the arguments as the
  reference's stages of those names; the mask array holds, along each row, the float 0 or 1 of "the row has a neighbour";
  the matrices' stack is the weights with the last two axes exchanged.
-/
import proofs.«430790_j53635551592548_3_alg».proof.Proof.Gen.KernelIdeal.Frame
import proofs.«430790_j53635551592548_3_alg».proof.Proof.Gen.ReferenceIdeal.Read
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 4000000 in
/-- The user rows the region finds are the reference's gathered user rows. -/
theorem V_users (c : Dev nD) : (V m c main_v6 : S16384x64.Idx → EReal)
    = Cert.ReferenceIdeal.Read.val_main_v6 (F := Ideal) (m ((c : Thread nD τ).loc main_arg0)) (m ((c : Thread nD τ).loc main_arg5)) := by
  show StableHlo.after hostOps0 (fun b => m (c, b)) (Proc.devRef .tc main_v6) = _
  after_results_simp <;> rfl

set_option maxHeartbeats 4000000 in
/-- The neighbours' masked means the region finds are the reference's. -/
theorem V_mean (c : Dev nD) : (V m c main_v61 : S16384x64.Idx → EReal)
    = Cert.ReferenceIdeal.Read.val_main_v30 (F := Ideal) (m ((c : Thread nD τ).loc main_arg3)) (m ((c : Thread nD τ).loc main_arg4)) (m ((c : Thread nD τ).loc main_arg5)) := by
  show StableHlo.after hostOps0 (fun b => m (c, b)) (Proc.devRef .tc main_v61) = _
  after_results_simp <;> rfl

set_option maxHeartbeats 4000000 in
/-- The product rows (the product's factors plus three tenths of its category's) the region finds are the reference's. -/
theorem V_prod (c : Dev nD) : (V m c main_v23 : S16384x64.Idx → EReal)
    = Cert.ReferenceIdeal.Read.val_main_v74 (F := Ideal) (m ((c : Thread nD τ).loc main_arg1)) (m ((c : Thread nD τ).loc main_arg2)) (m ((c : Thread nD τ).loc main_arg6)) (m ((c : Thread nD τ).loc main_arg7)) := by
  show StableHlo.after hostOps0 (fun b => m (c, b)) (Proc.devRef .tc main_v23) = _
  after_results_simp <;> rfl

set_option maxHeartbeats 4000000 in
/-- The gathered user biases the region finds are the reference's. -/
theorem V_ubias (c : Dev nD) : (V m c main_v30 : S16384.Idx → EReal)
    = Cert.ReferenceIdeal.Read.val_main_v83 (F := Ideal) (m ((c : Thread nD τ).loc main_arg0)) (m ((c : Thread nD τ).loc main_arg8)) := by
  show StableHlo.after hostOps0 (fun b => m (c, b)) (Proc.devRef .tc main_v30) = _
  after_results_simp <;> rfl

set_option maxHeartbeats 4000000 in
/-- The gathered product biases the region finds are the reference's. -/
theorem V_pbias (c : Dev nD) : (V m c main_v37 : S16384.Idx → EReal)
    = Cert.ReferenceIdeal.Read.val_main_v92 (F := Ideal) (m ((c : Thread nD τ).loc main_arg1)) (m ((c : Thread nD τ).loc main_arg9)) := by
  show StableHlo.after hostOps0 (fun b => m (c, b)) (Proc.devRef .tc main_v37) = _
  after_results_simp <;> rfl

set_option maxHeartbeats 4000000 in
/-- The mask array the region finds: the bit "the row's neighbour count is positive", as a float, repeated along the row. -/
theorem V_keep_eq (c : Dev nD) : (V m c main_v66 : S16384x64.Idx → EReal)
    = broadcastInDim S16384x64 ![0, 1] bcast_S16384x1_S16384x64_0_1 (broadcastInDim S16384x1 ![0] bcast_S16384_S16384x1_0
        (uitofp (F := Ideal) .f32 (Cert.ReferenceIdeal.Read.val_main_v32 (F := Ideal) (m ((c : Thread nD τ).loc main_arg4))))) := by
  show StableHlo.after hostOps0 (fun b => m (c, b)) (Proc.devRef .tc main_v66) = _
  after_results_simp <;> rfl

/-- Read at `(R, j)`: the float 0 or 1 of row `R`'s bit. -/
theorem V_keep (c : Dev nD) (R : Fin 16384) (j : Fin 64) : (V m c main_v66 : S16384x64.Idx → EReal) (ix2 R j)
    = (((Cert.ReferenceIdeal.Read.val_main_v32 (F := Ideal) (m ((c : Thread nD τ).loc main_arg4)) (ix1 R)).toNat : ℝ) : EReal) := by
  rw [V_keep_eq]
  refine (broadcastInDim_apply _ bcast_S16384x1_S16384x64_0_1 _ (ix2 R j) (ix2 R (0 : Fin 1)) (fun a => match a with
    | ⟨0, _⟩ => by show R.val = if (16384 : Nat) = 1 then 0 else R.val; rw [if_neg (by decide)]
    | ⟨1, _⟩ => by show 0 = if (1 : Nat) = 1 then 0 else j.val; rw [if_pos rfl])).trans ?_
  refine (broadcastInDim_apply _ bcast_S16384_S16384x1_0 _ (ix2 R (0 : Fin 1)) (ix1 R) (fun a => match a with
    | ⟨0, _⟩ => by show R.val = if (16384 : Nat) = 1 then 0 else R.val; rw [if_neg (by decide)])).trans ?_
  rfl

set_option maxHeartbeats 4000000 in
/-- The matrices' stack the region finds is the weights with their last two axes exchanged. -/
theorem V_wt_eq (c : Dev nD) : (V m c main_v67 : S2x64x64.Idx → EReal)
    = transpose S2x64x64 [0, 2, 1] (m ((c : Thread nD τ).loc main_arg11)) transposes_S2x64x64_S2x64x64_0_2_1 := by
  show StableHlo.after hostOps0 (fun b => m (c, b)) (Proc.devRef .tc main_v67) = _
  after_results_simp <;> rfl

/-- Read at `(l, k, j)`: the weights at `(l, j, k)`. -/
theorem V_wt (c : Dev nD) (l : Fin 2) (k j : Fin 64) : (V m c main_v67 : S2x64x64.Idx → EReal) (ix3 l k j)
    = ((m ((c : Thread nD τ).loc main_arg11)) : S2x64x64.Idx → EReal) (ix3 l j k) := by
  rw [V_wt_eq]
  exact transpose_ix3_021_apply _ transposes_S2x64x64_S2x64x64_0_2_1 l k j

end Cert.KernelIdeal.Host

end
-- ==== Proof.RefRow.lean ====
/-
  The reference's result read row by row at the ideal values: its last stage at batch row `R` is the row's score plus
  the global bias — the two `dot_general`s against the transposed slabs of the weights, the rectifications and the selects
  on "the row has a neighbour" are the two diffusion layers, and the final four-term sum is the score's in another order.
-/
import proofs.«430790_j53635551592548_3_alg».proof.Proof.Gen.ReferenceIdeal.Read
import proofs.«430790_j53635551592548_3_alg».proof.Proof.Spec
import Idealize.ShloMosaic.Lib.ValueIdx
import Idealize.ShloMosaic.PureOps.Ideal.Laws

noncomputable section

namespace Cert.ReferenceIdeal.Row

open Cert.ReferenceIdeal Cert.ReferenceIdeal.Read Idealize.ShloMosaic Idealize.ShloMosaic.ValueIdx Cert.SocialDiffusion

variable (x0 x1 x2 : (⟨S16384, .i32⟩ : BufTy).Contents (Elt Ideal)) (x3 : (⟨S16384x50, .i32⟩ : BufTy).Contents (Elt Ideal)) (x4 : (⟨S16384, .i32⟩ : BufTy).Contents (Elt Ideal))
  (x5 : (⟨S1000000x64, .f32⟩ : BufTy).Contents (Elt Ideal)) (x6 : (⟨S500000x64, .f32⟩ : BufTy).Contents (Elt Ideal)) (x7 : (⟨S1000x64, .f32⟩ : BufTy).Contents (Elt Ideal))
  (x8 : (⟨S1000000, .f32⟩ : BufTy).Contents (Elt Ideal)) (x9 : (⟨S500000, .f32⟩ : BufTy).Contents (Elt Ideal)) (x10 : (⟨S_, .f32⟩ : BufTy).Contents (Elt Ideal))
  (x11 : (⟨S2x64x64, .f32⟩ : BufTy).Contents (Elt Ideal)) (x12 : (⟨S2x64, .f32⟩ : BufTy).Contents (Elt Ideal))

/-- The keep bit broadcast over a row's 64 factors is the row's bit "the neighbour count is positive" (first layer's select). -/
theorem keep1_apply (R : Fin 16384) (j : Fin 64) :
    val_main_call1_v0 (F := Ideal) x4 (ix2 R j) = val_main_v32 (F := Ideal) x4 (ix1 R) := by
  rw [val_main_call1_v0_apply, val_main_v33_apply]
  refine congrArg (val_main_v32 (F := Ideal) x4) (funext fun a => Fin.ext ?_)
  match a with
  | ⟨0, _⟩ => rfl

/-- The same for the second layer's select. -/
theorem keep3_apply (R : Fin 16384) (j : Fin 64) :
    val_main_call3_v0 (F := Ideal) x4 (ix2 R j) = val_main_v32 (F := Ideal) x4 (ix1 R) := by
  rw [val_main_call3_v0_apply, val_main_v33_apply]
  refine congrArg (val_main_v32 (F := Ideal) x4) (funext fun a => Fin.ext ?_)
  match a with
  | ⟨0, _⟩ => rfl

/-- The first layer's matrix, sliced off the weights, flattened and transposed, reads at `(k, j)` the weights at `(0, j, k)`. -/
theorem w0_apply (k j : Fin 64) : val_main_v37 (F := Ideal) x11 (ix2 k j) = x11 (ix3 (0 : Fin 2) j k) := by
  rw [val_main_v37_apply, val_main_v36_apply, val_main_v35_apply]
  refine congrArg x11 (funext fun a => Fin.ext ?_)
  match a with
  | ⟨0, _⟩ => rfl
  | ⟨1, _⟩ => show (j.val * 64 + k.val) / 64 % 64 = j.val; omega
  | ⟨2, _⟩ => show (j.val * 64 + k.val) % 64 = k.val; omega

/-- The second layer's matrix reads at `(k, j)` the weights at `(1, j, k)`. -/
theorem w1_apply (k j : Fin 64) : val_main_v49 (F := Ideal) x11 (ix2 k j) = x11 (ix3 (1 : Fin 2) j k) := by
  rw [val_main_v49_apply, val_main_v48_apply, val_main_v47_apply]
  refine congrArg x11 (funext fun a => Fin.ext ?_)
  match a with
  | ⟨0, _⟩ => rfl
  | ⟨1, _⟩ => show (j.val * 64 + k.val) / 64 % 64 = j.val; omega
  | ⟨2, _⟩ => show (j.val * 64 + k.val) % 64 = k.val; omega

/-- The first layer's bias row repeated down the batch reads at `(R, j)` the biases at `(0, j)`. -/
theorem b0_apply (R : Fin 16384) (j : Fin 64) : val_main_v42 (F := Ideal) x12 (ix2 R j) = x12 (ix2 (0 : Fin 2) j) := by
  rw [val_main_v42_apply, val_main_v41_apply, val_main_v40_apply, val_main_v39_apply]
  refine congrArg x12 (funext fun a => Fin.ext ?_)
  match a with
  | ⟨0, _⟩ => rfl
  | ⟨1, _⟩ => show j.val % 64 = j.val; omega

/-- The second layer's bias row reads at `(R, j)` the biases at `(1, j)`. -/
theorem b1_apply (R : Fin 16384) (j : Fin 64) : val_main_v54 (F := Ideal) x12 (ix2 R j) = x12 (ix2 (1 : Fin 2) j) := by
  rw [val_main_v54_apply, val_main_v53_apply, val_main_v52_apply, val_main_v51_apply]
  refine congrArg x12 (funext fun a => Fin.ext ?_)
  match a with
  | ⟨0, _⟩ => rfl
  | ⟨1, _⟩ => show j.val % 64 = j.val; omega

theorem lidx38 (R : Fin 16384) (j k : Fin 64) : lidx_main_v38 (ix2 R j) k = ix2 R k := by
  funext a; apply Fin.ext; match a with | ⟨0, _⟩ => rfl | ⟨1, _⟩ => rfl
theorem ridx38 (R : Fin 16384) (j k : Fin 64) : ridx_main_v38 (ix2 R j) k = ix2 k j := by
  funext a; apply Fin.ext; match a with | ⟨0, _⟩ => rfl | ⟨1, _⟩ => rfl
theorem lidx50 (R : Fin 16384) (j k : Fin 64) : lidx_main_v50 (ix2 R j) k = ix2 R k := by
  funext a; apply Fin.ext; match a with | ⟨0, _⟩ => rfl | ⟨1, _⟩ => rfl
theorem ridx50 (R : Fin 16384) (j k : Fin 64) : ridx_main_v50 (ix2 R j) k = ix2 k j := by
  funext a; apply Fin.ext; match a with | ⟨0, _⟩ => rfl | ⟨1, _⟩ => rfl
theorem idx76 (R : Fin 16384) (k : Fin 64) : idx_main_v76 (ix1 R) k = ix2 R k := by
  funext a; apply Fin.ext; match a with | ⟨0, _⟩ => rfl | ⟨1, _⟩ => rfl

/-- The keep bit, the neighbours' mean, the two matrices and bias rows, and the user's row, for batch row `R`. -/
abbrev keepOf (R : Fin 16384) : Fin 64 → BitVec 1 := fun _ => val_main_v32 (F := Ideal) x4 (ix1 R)
abbrev meanOf (R : Fin 16384) : Fin 64 → EReal := fun k => val_main_v30 (F := Ideal) x3 x4 x5 (ix2 R k)
abbrev userOf (R : Fin 16384) : Fin 64 → EReal := fun k => val_main_v6 (F := Ideal) x0 x5 (ix2 R k)
abbrev mat (l : Fin 2) : Fin 64 → Fin 64 → EReal := fun k j => x11 (ix3 l j k)
abbrev bias (l : Fin 2) : Fin 64 → EReal := fun j => x12 (ix2 l j)

/-- The reference's row after its first layer. -/
theorem layer0_apply (R : Fin 16384) (j : Fin 64) :
    val_main_v45 (F := Ideal) x0 x3 x4 x5 x11 x12 (ix2 R j)
      = layer (keepOf x4 R) (meanOf x3 x4 x5 R) (mat x11 0) (bias x12 0) (userOf x0 x5 R) j := by
  rw [val_main_v45_apply, keep1_apply, val_main_v44_apply, val_main_v43_apply, val_main_v38_apply, b0_apply,
    val_main_call0_v0_apply, val_main_call0_cst_apply]
  simp only [lidx38, ridx38, val_main_v34_apply, w0_apply, Ideal.addf_def, Ideal.maximumf_def, Ideal.ofBits_def,
    Ideal.ofBits_zero_f32]
  rfl

/-- The reference's row after its second layer. -/
theorem layer1_apply (R : Fin 16384) (j : Fin 64) :
    val_main_v57 (F := Ideal) x0 x3 x4 x5 x11 x12 (ix2 R j)
      = layer (keepOf x4 R) (meanOf x3 x4 x5 R) (mat x11 1) (bias x12 1)
          (layer (keepOf x4 R) (meanOf x3 x4 x5 R) (mat x11 0) (bias x12 0) (userOf x0 x5 R)) j := by
  rw [val_main_v57_apply, keep3_apply, val_main_v56_apply, val_main_v55_apply, val_main_v50_apply, b1_apply,
    val_main_call2_v0_apply, val_main_call2_cst_apply]
  simp only [lidx50, ridx50, val_main_v46_apply, w1_apply, layer0_apply, Ideal.addf_def, Ideal.maximumf_def,
    Ideal.ofBits_def, Ideal.ofBits_zero_f32]
  rfl

/-- The reference's result at batch row `R`: the row's score plus the global bias. -/
theorem result_apply (R : Fin 16384) :
    val_main_v94 (F := Ideal) x0 x1 x2 x3 x4 x5 x6 x7 x8 x9 x10 x11 x12 (ix1 R)
      = rowScore (keepOf x4 R) (meanOf x3 x4 x5 R) (userOf x0 x5 R) (mat x11 0) (bias x12 0) (mat x11 1) (bias x12 1)
          (fun j => val_main_v74 (F := Ideal) x1 x2 x6 x7 (ix2 R j)) (val_main_v83 (F := Ideal) x0 x8 (ix1 R))
          (val_main_v92 (F := Ideal) x1 x9 (ix1 R)) + x10 ix0 := by
  rw [val_main_v94_apply, val_main_v93_apply, val_main_v85_apply, val_main_v84_apply, val_main_v76_apply,
    val_main_cst_11_apply]
  simp only [idx76, val_main_v75_apply, layer1_apply, Ideal.addf_def, Ideal.mulf_def, Ideal.ofBits_def,
    Ideal.ofBits_zero_f32, zero_add]
  unfold rowScore
  rw [sum_reorder]

end Cert.ReferenceIdeal.Row

end
-- ==== Proof.KernelRun.lean ====
/-
  The kernel program's run, read: the lines after the region add the global bias to the region's result array, so the
  program's result is, row by row, the score plus the global bias; and that is the reference's last stage of the same
  arguments.
-/
import proofs.«430790_j53635551592548_3_alg».proof.Proof.Gen.KernelIdeal.Frame
import proofs.«430790_j53635551592548_3_alg».proof.Proof.KernelBlocks
import proofs.«430790_j53635551592548_3_alg».proof.Proof.KernelHost
import proofs.«430790_j53635551592548_3_alg».proof.Proof.RefRow
import Idealize.ShloMosaic.Lib.StableHlo.Run
import Idealize.ShloMosaic.Lib.Pipeline.Value

set_option maxRecDepth 16384

noncomputable section

namespace Cert.KernelIdeal.Run

open Cert.KernelIdeal Cert.KernelIdeal.Gen Idealize.ShloMosaic Idealize.ShloMosaic.TcCoe Idealize.SL.Sem
open Idealize.ShloMosaic.StableHlo Idealize.ShloMosaic.ValueIdx Cert.SocialDiffusion
open Cert.KernelIdeal.Blocks Cert.KernelIdeal.Host
open Idealize.ShloMosaic.Pipeline (Dat)

variable (m : (ℓ : Loc nD τ sig) → Buf (Elt Ideal) ℓ) (ρ : Dev nD → PrngReg)

/-- The program's result array: the region's result plus the global bias on every row. -/
abbrev out (c : Dev nD) : S16384.Idx → EReal :=
  addf (F := Ideal) (s := S16384) (φ := .f32) (result m c)
    (broadcastInDim S16384 ![] bcast_S_S16384 (m ((c : Thread nD τ).loc main_arg10)))

/-- What the lines after the region leave in the result buffer. -/
theorem tail_eq (c : Dev nD) :
    Pipeline.afterTail₀ cfgs (dats m) 0 (V0 m) [hostOps1] c main_v70 = out m c := by
  unfold Pipeline.afterTail₀
  show StableHlo.after hostOps1 _ (Proc.devRef .tc main_v70) = _
  after_results
  have h68 : Pipeline.withArrays (cfgs 0).spec c (V0 m c) (fun w => (dats m 0 c).arrAt w (cfgs 0).N)
      (Proc.devRef .tc main_v68) = result m c :=
    (Pipeline.withArrays_arr spec0 launch0.win.arr_inj c _ _ 8).trans (final m c)
  have h10 : Pipeline.withArrays (cfgs 0).spec c (V0 m c) (fun w => (dats m 0 c).arrAt w (cfgs 0).N)
      (Proc.devRef .tc main_arg10) = m ((c : Thread nD τ).loc main_arg10) :=
    (Pipeline.withArrays_of_ne _ c (V0 m c) _ main_arg10
      (by exact (by decide : ∀ w, Pipeline.arrRef spec0 w ≠ main_arg10))).trans (V_main_arg10 m c)
  rw [h68, h10]

/-- The frame run re-posted: the result array at `out`, the arguments unchanged. -/
theorem run : θ_run defs (onTc (τ := τ) (main (F := Ideal))) ⟨m, fun _ => 0, ρ⟩ fun r => ∀ c : Dev nD,
      r.2.mem ((c.tc : Thread nD τ).loc main_v70) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨((h c).2 main_v70 (Pipeline.mem_restRefs_of main_v70 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      ((h c).1 7).trans (((dats m 0 c).arrAt_in 7 rfl _).trans ((A_eq m c 7).trans (V_main_arg12 m c)))⟩)
    (run_main m ρ)

/-- The program's result is the reference's last stage of the same arguments: at batch row `R` both are the row's score
    plus the global bias — the kernel's test "the float of the bit exceeds one half" is the bit, its matrices the weights'
    slabs transposed as the reference transposes them. -/
theorem out_eq_reference (c : Dev nD) : out m c
    = Cert.ReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  obtain ⟨R, rfl⟩ : ∃ R : Fin 16384, i = ix1 R :=
    ⟨⟨(i 0).val, (i 0).isLt⟩, by funext a; match a with | ⟨0, _⟩ => rfl⟩
  rw [Cert.ReferenceIdeal.Row.result_apply]
  have hb : broadcastInDim S16384 ![] bcast_S_S16384 (m ((c : Thread nD τ).loc main_arg10)) (ix1 R)
      = m ((c : Thread nD τ).loc main_arg10) ix0 :=
    broadcastInDim_apply _ bcast_S_S16384 _ (ix1 R) ix0 (fun a => a.elim0)
  show result m c (ix1 R) + broadcastInDim S16384 ![] bcast_S_S16384 (m ((c : Thread nD τ).loc main_arg10)) (ix1 R) = _
  rw [hb]
  refine congrArg (· + m ((c : Thread nD τ).loc main_arg10) ix0) ?_
  show scores (V m c main_v6) (V m c main_v61) (V m c main_v66) (V m c main_v23) (V m c main_v30) (V m c main_v37)
    (V m c main_v67) (V m c main_arg12) (ix1 R) = _
  unfold scores
  rw [show row (ix1 R) = R from rfl]
  simp only [V_users m c, V_mean m c, V_prod m c, V_ubias m c, V_pbias m c, V_keep m c, V_wt m c, V_main_arg12 m c,
    keep_of_half]

end Cert.KernelIdeal.Run

end
-- ==== Proof.lean ====
/-
  The certificate of the social-diffusion recommender kernel against its plain reference, at the ideal values.

  Both programs gather the user's row, the neighbours' rows, the product's and category's rows and the two biases, and form
  the masked mean of the neighbours' rows, by the same host operations. The kernel then does in one pass, on blocks of 2048
  batch rows, what the reference does with whole-array operations: two diffusion layers (add the neighbours' mean, multiply
  by a layer's matrix, add its bias row, rectify, and keep the result only on rows that have a neighbour), the inner
  product with the product's row, and the two biases; the host adds the global bias. Row by row both results are the same
  extended real: a product against the transposed weights is the reference's `dot_general` against the weights
  transposed, a keep bit stored as the float 0 or 1 and tested against one half is the reference's keep bit, and the final
  four-term sum is the reference's in another order (addition of extended reals is commutative and associative; no
  finiteness is used).

  The three frames are the generated ones (the reference's from its generated run); the idealization rewrote nothing, so
  `preserves` is trivial.
-/
import proofs.«430790_j53635551592548_3_alg».proof.Defs
import proofs.«430790_j53635551592548_3_alg».proof.Proof.Gen.Kernel
import proofs.«430790_j53635551592548_3_alg».proof.Proof.Gen.Kernel.Skeleton
import proofs.«430790_j53635551592548_3_alg».proof.Proof.Gen.Kernel.Launch
import proofs.«430790_j53635551592548_3_alg».proof.Proof.Gen.Kernel.Points
import proofs.«430790_j53635551592548_3_alg».proof.Proof.Gen.Kernel.Frame
import proofs.«430790_j53635551592548_3_alg».proof.Proof.Gen.KernelIdeal
import proofs.«430790_j53635551592548_3_alg».proof.Proof.Gen.KernelIdeal.Skeleton
import proofs.«430790_j53635551592548_3_alg».proof.Proof.Gen.KernelIdeal.Launch
import proofs.«430790_j53635551592548_3_alg».proof.Proof.Gen.KernelIdeal.Points
import proofs.«430790_j53635551592548_3_alg».proof.Proof.Gen.KernelIdeal.Frame
import proofs.«430790_j53635551592548_3_alg».proof.Proof.Gen.ReferenceIdeal
import proofs.«430790_j53635551592548_3_alg».proof.Proof.Gen.Pre_finite_inputs
import proofs.«430790_j53635551592548_3_alg».proof.Proof.Gen.ReferenceIdeal.Run
import proofs.«430790_j53635551592548_3_alg».proof.Proof.Gen.ReferenceIdeal.Read
import proofs.«430790_j53635551592548_3_alg».proof.Proof.KernelRun
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its generated run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end with the same result array: the kernel program's is the
    reference's last stage of its own arguments, and those are the reference's arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Run.out m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v94_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  exact (Cert.KernelIdeal.Run.out_eq_reference m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
